-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S64x8x1024 : Shape := ⟨3, ![64, 8, 1024]⟩
abbrev S_ : Shape := ⟨0, ![]⟩

class Facts : Prop where

variable [Facts]

def fn {F : FTy → Type} [FloatOps F] (main_arg0 : IVec S64x8x1024 32) : IVec S_ 1 :=
  let main_c : IVec S_ 1 := constantI S_ 1 1#1
  main_c
-- ==== Kernel.lean ====
abbrev S64x8x1024 : Shape := ⟨3, ![64, 8, 1024]⟩
abbrev S1x1 : Shape := ⟨2, ![1, 1]⟩
abbrev S64x8x128 : Shape := ⟨3, ![64, 8, 128]⟩
abbrev S64x1 : Shape := ⟨2, ![64, 1]⟩
abbrev S64x128x128 : Shape := ⟨3, ![64, 128, 128]⟩
abbrev S64x1x128 : Shape := ⟨3, ![64, 1, 128]⟩
abbrev S64x128 : Shape := ⟨2, ![64, 128]⟩
abbrev S64x128x1 : Shape := ⟨3, ![64, 128, 1]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S1 : Shape := ⟨1, ![1]⟩
abbrev S64 : Shape := ⟨1, ![64]⟩
abbrev S_ : Shape := ⟨0, ![]⟩

abbrev nBuf : Space → Nat
  | .hbm => 3
  | .vmem => 5
  | .smem => 0
  | _ => 0

abbrev bufTy : (tb : Table) → Fin (tcTables nBuf tb) → BufTy
  | .hbm, ⟨0, _⟩ => ⟨S64x8x1024, .i32⟩
  | .hbm, ⟨1, _⟩ => ⟨S1x1, .f32⟩
  | .hbm, ⟨2, _⟩ => ⟨S_, .f32⟩
  | .local _ .vmem, ⟨0, _⟩ => ⟨S64x8x128, .i32⟩
  | .local _ .vmem, ⟨1, _⟩ => ⟨S64x8x128, .i32⟩
  | .local _ .vmem, ⟨2, _⟩ => ⟨S1x1, .f32⟩
  | .local _ .vmem, ⟨3, _⟩ => ⟨S1x1, .f32⟩
  | .local _ .vmem, ⟨4, _⟩ => ⟨S64x1, .f32⟩
  | _, _ => ⟨S64x8x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v125 : BitVec 1 := Scalar.cmpi .eq arg0 c7_i32
  let v126 : BitVec 32 := Scalar.extui v125
  let c0_i32_45 : BitVec 32 := 0#32
  let v127 : BitVec 1 := Scalar.cmpi .ne v126 c0_i32_45
  v127

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S64x128x128_d2_w32 : S64x128x128.Iotas .tc 32 [2]
  inb_S64x8x128_S64x1x128_0_0_0 : ∀ a, (![0, 0, 0] : Fin 3 → Nat) a + S64x1x128.size a ≤ S64x8x128.size a
  h_S64x1x128 : 0 < S64x1x128.numel
  shapeCasts_S64x1x128_S64x128 : S64x1x128.ShapeCasts S64x128
  shapeCasts_S64x128_S64x128x1 : S64x128.ShapeCasts S64x128x1
  broadcasts_S64x128x1_S64x128x128 : S64x128x1.Broadcasts S64x128x128
  natLt_1_32 : 1 < 32
  inb_S64x8x128_S64x1x128_0_1_0 : ∀ a, (![0, 1, 0] : Fin 3 → Nat) a + S64x1x128.size a ≤ S64x8x128.size a
  inb_S64x8x128_S64x1x128_0_2_0 : ∀ a, (![0, 2, 0] : Fin 3 → Nat) a + S64x1x128.size a ≤ S64x8x128.size a
  inb_S64x8x128_S64x1x128_0_3_0 : ∀ a, (![0, 3, 0] : Fin 3 → Nat) a + S64x1x128.size a ≤ S64x8x128.size a
  inb_S64x8x128_S64x1x128_0_4_0 : ∀ a, (![0, 4, 0] : Fin 3 → Nat) a + S64x1x128.size a ≤ S64x8x128.size a
  inb_S64x8x128_S64x1x128_0_5_0 : ∀ a, (![0, 5, 0] : Fin 3 → Nat) a + S64x1x128.size a ≤ S64x8x128.size a
  inb_S64x8x128_S64x1x128_0_6_0 : ∀ a, (![0, 6, 0] : Fin 3 → Nat) a + S64x1x128.size a ≤ S64x8x128.size a
  inb_S64x8x128_S64x1x128_0_7_0 : ∀ a, (![0, 7, 0] : Fin 3 → Nat) a + S64x1x128.size a ≤ S64x8x128.size a
  reduces_S64x128x128_S128x128 : S64x128x128.Reduces [0] S128x128
  shapeCasts_S128x128_S1x128x128 : S128x128.ShapeCasts S1x128x128
  broadcasts_S1x128x128_S64x128x128 : S1x128x128.Broadcasts S64x128x128
  reduces_S128x128_S128 : S128x128.Reduces [1] S128
  shapeCasts_S128_S128x1 : S128.ShapeCasts S128x1
  reduces_S128x1_S1 : S128x1.Reduces [0] S1
  shapeCasts_S1_S1x1 : S1.ShapeCasts S1x1
  reduces_S64x128x128_S64x128 : S64x128x128.Reduces [2] S64x128
  reduces_S64x128_S64 : S64x128.Reduces [1] S64
  shapeCasts_S64_S64x1 : S64.ShapeCasts S64x1
  reduces_S64x1_S1 : S64x1.Reduces [0] S1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8x128.size a ≤ S64x8x1024.size a
  hwx0_0 : ∀ i : grid0.Coords, EltTy.bits .i32 = 32 ∨ (Rect.block (s := S64x8x1024) S64x8x128.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_arg0) S64x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S64x8x1024 : Shape := ⟨3, ![64, 8, 1024]⟩
abbrev S_ : Shape := ⟨0, ![]⟩
abbrev S64x8x1024x1 : Shape := ⟨4, ![64, 8, 1024, 1]⟩
abbrev S1x1x1x128 : Shape := ⟨4, ![1, 1, 1, 128]⟩
abbrev S64x8x1024x128 : Shape := ⟨4, ![64, 8, 1024, 128]⟩
abbrev S64x1024x128 : Shape := ⟨3, ![64, 1024, 128]⟩
abbrev S64x131072 : Shape := ⟨2, ![64, 131072]⟩
abbrev S131072 : Shape := ⟨1, ![131072]⟩
abbrev S1x131072 : Shape := ⟨2, ![1, 131072]⟩
abbrev S64x8x131072 : Shape := ⟨3, ![64, 8, 131072]⟩
abbrev S64x1x131072 : Shape := ⟨3, ![64, 1, 131072]⟩
abbrev S64 : Shape := ⟨1, ![64]⟩

abbrev nBuf : Space → Nat
  | .hbm => 76
  | .vmem => 0
  | .smem => 0
  | _ => 0

abbrev bufTy : (tb : Table) → Fin (tcTables nBuf tb) → BufTy
  | .hbm, ⟨0, _⟩ => ⟨S64x8x1024, .i32⟩
  | .hbm, ⟨1, _⟩ => ⟨S_, .i32⟩
  | .hbm, ⟨2, _⟩ => ⟨S64x8x1024, .i32⟩
  | .hbm, ⟨3, _⟩ => ⟨S64x8x1024, .i32⟩
  | .hbm, ⟨4, _⟩ => ⟨S64x8x1024x1, .i32⟩
  | .hbm, ⟨5, _⟩ => ⟨S1x1x1x128, .i32⟩
  | .hbm, ⟨6, _⟩ => ⟨S64x8x1024x128, .i32⟩
  | .hbm, ⟨7, _⟩ => ⟨S64x8x1024x128, .i32⟩
  | .hbm, ⟨8, _⟩ => ⟨S64x8x1024x128, .i1⟩
  | .hbm, ⟨9, _⟩ => ⟨S64x8x1024x128, .f32⟩
  | .hbm, ⟨10, _⟩ => ⟨S_, .f32⟩
  | .hbm, ⟨11, _⟩ => ⟨S64x1024x128, .f32⟩
  | .hbm, ⟨12, _⟩ => ⟨S_, .f32⟩
  | .hbm, ⟨13, _⟩ => ⟨S64x1024x128, .f32⟩
  | .hbm, ⟨14, _⟩ => ⟨S64x1024x128, .f32⟩
  | .hbm, ⟨15, _⟩ => ⟨S64x131072, .f32⟩
  | .hbm, ⟨16, _⟩ => ⟨S_, .i32⟩
  | .hbm, ⟨17, _⟩ => ⟨S_, .f32⟩
  | .hbm, ⟨18, _⟩ => ⟨S131072, .f32⟩
  | .hbm, ⟨19, _⟩ => ⟨S1x131072, .f32⟩
  | .hbm, ⟨20, _⟩ => ⟨S_, .f32⟩
  | .hbm, ⟨21, _⟩ => ⟨S1x131072, .f32⟩
  | .hbm, ⟨22, _⟩ => ⟨S1x131072, .f32⟩
  | .hbm, ⟨23, _⟩ => ⟨S64x131072, .f32⟩
  | .hbm, ⟨24, _⟩ => ⟨S64x131072, .f32⟩
  | .hbm, ⟨25, _⟩ => ⟨S64x131072, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S131072, .f32⟩
  | .hbm, ⟨31, _⟩ => ⟨S131072, .f32⟩
  | .hbm, ⟨32, _⟩ => ⟨S131072, .f32⟩
  | .hbm, ⟨33, _⟩ => ⟨S_, .f32⟩
  | .hbm, ⟨34, _⟩ => ⟨S_, .i1⟩
  | .hbm, ⟨35, _⟩ => ⟨S_, .f32⟩
  | .hbm, ⟨36, _⟩ => ⟨S_, .f32⟩
  | .hbm, ⟨37, _⟩ => ⟨S131072, .f32⟩
  | .hbm, ⟨38, _⟩ => ⟨S131072, .f32⟩
  | .hbm, ⟨39, _⟩ => ⟨S131072, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S64x8x131072, .f32⟩
  | .hbm, ⟨45, _⟩ => ⟨S_, .i32⟩
  | .hbm, ⟨46, _⟩ => ⟨S_, .f32⟩
  | .hbm, ⟨47, _⟩ => ⟨S64x131072, .f32⟩
  | .hbm, ⟨48, _⟩ => ⟨S64x1x131072, .f32⟩
  | .hbm, ⟨49, _⟩ => ⟨S_, .f32⟩
  | .hbm, ⟨50, _⟩ => ⟨S64x1x131072, .f32⟩
  | .hbm, ⟨51, _⟩ => ⟨S64x1x131072, .f32⟩
  | .hbm, ⟨52, _⟩ => ⟨S64x8x131072, .f32⟩
  | .hbm, ⟨53, _⟩ => ⟨S64x8x131072, .f32⟩
  | .hbm, ⟨54, _⟩ => ⟨S64x8x131072, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S64x131072, .f32⟩
  | .hbm, ⟨60, _⟩ => ⟨S64x131072, .f32⟩
  | .hbm, ⟨61, _⟩ => ⟨S64x131072, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | .hbm, ⟨66, _⟩ => ⟨S64x131072, .f32⟩
  | .hbm, ⟨67, _⟩ => ⟨S64x131072, .f32⟩
  | .hbm, ⟨68, _⟩ => ⟨S64x131072, .f32⟩
  | .hbm, ⟨69, _⟩ => ⟨S_, .f32⟩
  | .hbm, ⟨70, _⟩ => ⟨S64, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S64x8x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call1_call0_cst : Ref sig .tc := ⟨.hbm, 17, rfl⟩
abbrev main_call1_call0_v0 : Ref sig .tc := ⟨.hbm, 18, rfl⟩
abbrev main_call1_call0_v1 : Ref sig .tc := ⟨.hbm, 19, rfl⟩
abbrev main_call1_call0_cst_0 : Ref sig .tc := ⟨.hbm, 20, rfl⟩
abbrev main_call1_call0_v2 : Ref sig .tc := ⟨.hbm, 21, rfl⟩
abbrev main_call1_call0_v3 : Ref sig .tc := ⟨.hbm, 22, rfl⟩
abbrev main_call1_call0_v4 : Ref sig .tc := ⟨.hbm, 23, rfl⟩
abbrev main_call1_call0_v5 : Ref sig .tc := ⟨.hbm, 24, rfl⟩
abbrev main_call1_call0_v6 : Ref sig .tc := ⟨.hbm, 25, rfl⟩
abbrev main_call1_call0_v7 : Ref sig .tc := ⟨.hbm, 26, rfl⟩
abbrev main_call1_call0_cst_1 : Ref sig .tc := ⟨.hbm, 27, rfl⟩
abbrev main_call1_call0_v8 : Ref sig .tc := ⟨.hbm, 28, rfl⟩
abbrev main_call1_call0_cst_2 : Ref sig .tc := ⟨.hbm, 29, rfl⟩
abbrev main_call1_call0_v9 : Ref sig .tc := ⟨.hbm, 30, rfl⟩
abbrev main_call1_call0_v10 : Ref sig .tc := ⟨.hbm, 31, rfl⟩
abbrev main_call1_call0_v11 : Ref sig .tc := ⟨.hbm, 32, rfl⟩
abbrev main_call1_call0_cst_3 : Ref sig .tc := ⟨.hbm, 33, rfl⟩
abbrev main_call1_call0_v12 : Ref sig .tc := ⟨.hbm, 34, rfl⟩
abbrev main_call1_call0_cst_4 : Ref sig .tc := ⟨.hbm, 35, rfl⟩
abbrev main_call1_call0_call0_v0 : Ref sig .tc := ⟨.hbm, 36, rfl⟩
abbrev main_call1_call0_call0_v1 : Ref sig .tc := ⟨.hbm, 37, rfl⟩
abbrev main_call1_v0 : Ref sig .tc := ⟨.hbm, 38, rfl⟩
abbrev main_v7 : Ref sig .tc := ⟨.hbm, 39, rfl⟩
abbrev main_cst_2 : Ref sig .tc := ⟨.hbm, 40, rfl⟩
abbrev main_v8 : Ref sig .tc := ⟨.hbm, 41, rfl⟩
abbrev main_cst_3 : Ref sig .tc := ⟨.hbm, 42, rfl⟩
abbrev main_v9 : Ref sig .tc := ⟨.hbm, 43, rfl⟩
abbrev main_v10 : Ref sig .tc := ⟨.hbm, 44, rfl⟩
abbrev main_c_4 : Ref sig .tc := ⟨.hbm, 45, rfl⟩
abbrev main_call2_call0_cst : Ref sig .tc := ⟨.hbm, 46, rfl⟩
abbrev main_call2_call0_v0 : Ref sig .tc := ⟨.hbm, 47, rfl⟩
abbrev main_call2_call0_v1 : Ref sig .tc := ⟨.hbm, 48, rfl⟩
abbrev main_call2_call0_cst_0 : Ref sig .tc := ⟨.hbm, 49, rfl⟩
abbrev main_call2_call0_v2 : Ref sig .tc := ⟨.hbm, 50, rfl⟩
abbrev main_call2_call0_v3 : Ref sig .tc := ⟨.hbm, 51, rfl⟩
abbrev main_call2_call0_v4 : Ref sig .tc := ⟨.hbm, 52, rfl⟩
abbrev main_call2_call0_v5 : Ref sig .tc := ⟨.hbm, 53, rfl⟩
abbrev main_call2_call0_v6 : Ref sig .tc := ⟨.hbm, 54, rfl⟩
abbrev main_call2_call0_v7 : Ref sig .tc := ⟨.hbm, 55, rfl⟩
abbrev main_call2_call0_cst_1 : Ref sig .tc := ⟨.hbm, 56, rfl⟩
abbrev main_call2_call0_v8 : Ref sig .tc := ⟨.hbm, 57, rfl⟩
abbrev main_call2_call0_cst_2 : Ref sig .tc := ⟨.hbm, 58, rfl⟩
abbrev main_call2_call0_v9 : Ref sig .tc := ⟨.hbm, 59, rfl⟩
abbrev main_call2_call0_v10 : Ref sig .tc := ⟨.hbm, 60, rfl⟩
abbrev main_call2_call0_v11 : Ref sig .tc := ⟨.hbm, 61, rfl⟩
abbrev main_call2_call0_cst_3 : Ref sig .tc := ⟨.hbm, 62, rfl⟩
abbrev main_call2_call0_v12 : Ref sig .tc := ⟨.hbm, 63, rfl⟩
abbrev main_call2_call0_cst_4 : Ref sig .tc := ⟨.hbm, 64, rfl⟩
abbrev main_call2_call0_call0_v0 : Ref sig .tc := ⟨.hbm, 65, rfl⟩
abbrev main_call2_call0_call0_v1 : Ref sig .tc := ⟨.hbm, 66, rfl⟩
abbrev main_call2_v0 : Ref sig .tc := ⟨.hbm, 67, rfl⟩
abbrev main_v11 : Ref sig .tc := ⟨.hbm, 68, rfl⟩
abbrev main_cst_5 : Ref sig .tc := ⟨.hbm, 69, rfl⟩
abbrev main_v12 : Ref sig .tc := ⟨.hbm, 70, rfl⟩
abbrev main_cst_6 : Ref sig .tc := ⟨.hbm, 71, rfl⟩
abbrev main_v13 : Ref sig .tc := ⟨.hbm, 72, rfl⟩
abbrev main_cst_7 : Ref sig .tc := ⟨.hbm, 73, rfl⟩
abbrev main_v14 : Ref sig .tc := ⟨.hbm, 74, rfl⟩
abbrev main_v15 : Ref sig .tc := ⟨.hbm, 75, rfl⟩

abbrev nD : Nat := 1
abbrev τ : Topo := Topo.v7x

variable {F : FTy → Type} [FloatOps F]

class Facts₀ : Prop where
  bcast_S_S64x8x1024 : S_.BroadcastsInDim S64x8x1024 (![] : Fin 0 → Fin S64x8x1024.rank)
  bcast_S64x8x1024_S64x8x1024x1_0_1_2 : S64x8x1024.BroadcastsInDim S64x8x1024x1 (![0, 1, 2] : Fin 3 → Fin S64x8x1024x1.rank)
  bcast_S64x8x1024x1_S64x8x1024x128_0_1_2_3 : S64x8x1024x1.BroadcastsInDim S64x8x1024x128 (![0, 1, 2, 3] : Fin 4 → Fin S64x8x1024x128.rank)
  bcast_S1x1x1x128_S64x8x1024x128_0_1_2_3 : S1x1x1x128.BroadcastsInDim S64x8x1024x128 (![0, 1, 2, 3] : Fin 4 → Fin S64x8x1024x128.rank)
  reducesTo_S64x8x1024x128_S64x1024x128_d1 : S64x8x1024x128.ReducesTo [1] S64x1024x128
  h_S_ : 0 < S_.numel
  bcast_S_S64x1024x128 : S_.BroadcastsInDim S64x1024x128 (![] : Fin 0 → Fin S64x1024x128.rank)
  shapeCasts_S64x1024x128_S64x131072 : S64x1024x128.ShapeCasts S64x131072
  reducesTo_S64x131072_S131072_d0 : S64x131072.ReducesTo [0] S131072
  bcast_S131072_S1x131072_1 : S131072.BroadcastsInDim S1x131072 (![1] : Fin 1 → Fin S1x131072.rank)
  bcast_S_S1x131072 : S_.BroadcastsInDim S1x131072 (![] : Fin 0 → Fin S1x131072.rank)
  bcast_S1x131072_S64x131072_0_1 : S1x131072.BroadcastsInDim S64x131072 (![0, 1] : Fin 2 → Fin S64x131072.rank)
  bcast_S_S131072 : S_.BroadcastsInDim S131072 (![] : Fin 0 → Fin S131072.rank)
  reducesTo_S131072_S_d0 : S131072.ReducesTo [0] S_
  shapeCasts_S64x8x1024x128_S64x8x131072 : S64x8x1024x128.ShapeCasts S64x8x131072
  reducesTo_S64x8x131072_S64x131072_d1 : S64x8x131072.ReducesTo [1] S64x131072
  bcast_S64x131072_S64x1x131072_0_2 : S64x131072.BroadcastsInDim S64x1x131072 (![0, 2] : Fin 2 → Fin S64x1x131072.rank)
  bcast_S_S64x1x131072 : S_.BroadcastsInDim S64x1x131072 (![] : Fin 0 → Fin S64x1x131072.rank)
  bcast_S64x1x131072_S64x8x131072_0_1_2 : S64x1x131072.BroadcastsInDim S64x8x131072 (![0, 1, 2] : Fin 3 → Fin S64x8x131072.rank)
  bcast_S_S64x131072 : S_.BroadcastsInDim S64x131072 (![] : Fin 0 → Fin S64x131072.rank)
  reducesTo_S64x131072_S64_d1 : S64x131072.ReducesTo [1] S64
  reducesTo_S64_S_d0 : S64.ReducesTo [0] S_

variable [Facts₀]

class Facts : Prop extends Facts₀ where

variable [Facts]
-- ==== Proof.Spec.lean ====
/-
  The mathematics both programs compute, stated once over a table of one-hot entries.

  A label word `v` and a class `k < 128` give the one-hot entry `hot v k`: 1 when `v - 1 = k`, else 0
  (a label outside 1..128 gives a row of zeros on both sides).  From the table
  `o c s w k` (class-set `c < 64`, shot `s < 8`, position `w < 1024`, class `k < 128`) the result is

      1 / (Σ_{w,k} std over c of (mean over s of o))  +  (Σ_c Σ_{w,k} std over s of o) / 64,

  both deviations with Bessel's correction.  The kernel works on the occupancy count n = Σ_s o and walks the
  positions in eight tiles of 128 (`Kres`); the reference takes the two deviations literally over the flattened
  (w, k) axis of length 131072 (`Rres`).  `Bridge.lean` proves the two equal for a 0/1-valued table.
-/
import Idealize.ShloMosaic.PureOps.Ideal
import Idealize.ShloMosaic.Lib.ValueIdx

noncomputable section

namespace Cert.Spec

open Idealize.ShloMosaic Idealize.ShloMosaic.ValueIdx

/-- A table of one-hot entries over the whole input: class-set, shot, position, class. -/
abbrev OH := Fin 64 → Fin 8 → Fin 1024 → Fin 128 → EReal
/-- The same over one tile of 128 positions. -/
abbrev OHB := Fin 64 → Fin 8 → Fin 128 → Fin 128 → EReal

/-- The one-hot entry of a label word at class `k`: 1 when `v - 1 = k`. -/
def hot (v : BitVec 32) (k : Fin 128) : EReal := if v - 1#32 = BitVec.ofNat 32 k.val then 1 else 0

theorem hot_01 (v : BitVec 32) (k : Fin 128) : hot v k = 0 ∨ hot v k = 1 := by
  unfold hot; split
  · exact Or.inr rfl
  · exact Or.inl rfl

/-- The table of a whole label array. -/
def oh (x : (⟨3, ![64, 8, 1024]⟩ : Shape).Idx → BitVec 32) : OH := fun c s w k => hot (x (ix3 c s w)) k
/-- The table of one tile of labels. -/
def ohB (xb : (⟨3, ![64, 8, 128]⟩ : Shape).Idx → BitVec 32) : OHB := fun c s w k => hot (xb (ix3 c s w)) k

theorem oh_01 (x) (c s w k) : oh x c s w k = 0 ∨ oh x c s w k = 1 := hot_01 _ _

/-- Tile `t` of a table: positions 128 t … 128 t + 127. -/
def tile (o : OH) (t : Fin 8) : OHB := fun c s w k => o c s ⟨128 * t.val + w.val, by omega⟩ k

/-! ## The kernel's form: through the occupancy count, tile by tile -/

/-- The occupancy count over the eight shots. -/
def cnt (ob : OHB) (c : Fin 64) (w k : Fin 128) : EReal := ∑ s : Fin 8, ob c s w k

/-- The count's mean over the 64 class-sets. -/
def kmu (ob : OHB) (w k : Fin 128) : EReal := Ideal.div (∑ c : Fin 64, cnt ob c w k) ((64 : ℝ) : EReal)

/-- The deviation of the count over the class-sets, clamped at zero, rescaled by the 8 shots. -/
def kstd (ob : OHB) (w k : Fin 128) : EReal :=
  Ideal.div (Ideal.sqrt (max (Ideal.div (∑ c : Fin 64, (cnt ob c w k - kmu ob w k) * (cnt ob c w k - kmu ob w k))
    ((63 : ℝ) : EReal)) 0)) ((8 : ℝ) : EReal)

/-- The deviation over the shots of a 0/1 sequence with sum n, in closed form: √(n (8 − n) / 56), clamped. -/
def kcls (ob : OHB) (c : Fin 64) (w k : Fin 128) : EReal :=
  Ideal.sqrt (max (Ideal.div (cnt ob c w k * (((8 : ℝ) : EReal) - cnt ob c w k)) ((56 : ℝ) : EReal)) 0)

/-- One tile's share of the inter-class sum. -/
def tileP (ob : OHB) : EReal := ∑ w : Fin 128, ∑ k : Fin 128, kstd ob w k
/-- One tile's share of the in-class sums, per class-set. -/
def tileQ (ob : OHB) (c : Fin 64) : EReal := ∑ w : Fin 128, ∑ k : Fin 128, kcls ob c w k

/-- The kernel's result. -/
def Kres (o : OH) : EReal :=
  Ideal.div ((1 : ℝ) : EReal) (∑ t : Fin 8, tileP (tile o t))
    + Ideal.div (∑ c : Fin 64, ∑ t : Fin 8, tileQ (tile o t) c) ((64 : ℝ) : EReal)

/-! ## The reference's form: the two deviations literally, over the flattened (position, class) axis -/

/-- The mean over the shots. -/
def rmean8 (o : OH) (c : Fin 64) (w : Fin 1024) (k : Fin 128) : EReal :=
  Ideal.div (∑ s : Fin 8, o c s w k) ((8 : ℝ) : EReal)
/-- Its mean over the class-sets. -/
def rmu (o : OH) (w : Fin 1024) (k : Fin 128) : EReal :=
  Ideal.div (∑ c : Fin 64, rmean8 o c w k) ((64 : ℝ) : EReal)
/-- The deviation over the class-sets of the shot mean. -/
def rstd (o : OH) (w : Fin 1024) (k : Fin 128) : EReal :=
  Ideal.sqrt (Ideal.div (∑ c : Fin 64, (rmean8 o c w k - rmu o w k) * (rmean8 o c w k - rmu o w k)) ((63 : ℝ) : EReal))
/-- The deviation over the shots. -/
def rcls (o : OH) (c : Fin 64) (w : Fin 1024) (k : Fin 128) : EReal :=
  Ideal.sqrt (Ideal.div (∑ s : Fin 8, (o c s w k - rmean8 o c w k) * (o c s w k - rmean8 o c w k)) ((7 : ℝ) : EReal))

/-- Position and class of a flattened index j = 128 w + k. -/
def wOf (j : Fin 131072) : Fin 1024 := ⟨j.val / 128, by omega⟩
def kOf (j : Fin 131072) : Fin 128 := ⟨j.val % 128, Nat.mod_lt _ (by norm_num)⟩

/-- The reference's result. -/
def Rres (o : OH) : EReal :=
  Ideal.div ((1 : ℝ) : EReal) (∑ j : Fin 131072, rstd o (wOf j) (kOf j))
    + Ideal.div (∑ c : Fin 64, ∑ j : Fin 131072, rcls o c (wOf j) (kOf j)) ((64 : ℝ) : EReal)

end Cert.Spec

end
-- ==== Proof.BridgePt.lean ====
/-
  The two pointwise identities between the kernel's closed forms and the reference's literal deviations,
  for a table of 0/1 entries.

  Every entry of the table is the coercion of a real 0 or 1, so every expression on either side is the
  coercion of a real one: finite sums, differences and products of coercions are coercions, division by a
  nonzero real constant is, and the square root of a non-negative real is.  What remains are two identities
  between real numbers.
-/
import proofs.«112873_j75222057222180_1_alg».proof.Proof.Spec

noncomputable section

namespace Cert.Spec

open Idealize.ShloMosaic

/-! ## Coercions from the reals -/

/-- A finite sum of coercions is the coercion of the sum. -/
private theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of two reals, the divisor nonzero. -/
private theorem div_coe_coe (x : ℝ) {y : ℝ} (h : y ≠ 0) :
    Ideal.div ((x : ℝ) : EReal) ((y : ℝ) : EReal) = ((x / y : ℝ) : EReal) := by
  rw [Ideal.div_coe h, ← EReal.coe_mul, mul_one_div]

/-- The square root of a non-negative real. -/
private theorem sqrt_coe_nonneg {x : ℝ} (h : 0 ≤ x) :
    Ideal.sqrt ((x : ℝ) : EReal) = ((Real.sqrt x : ℝ) : EReal) := by
  rw [Ideal.sqrt_coe, if_neg (not_lt.mpr h)]

/-- Clamping a non-negative real at zero does nothing. -/
private theorem max_coe_zero {x : ℝ} (h : 0 ≤ x) : max ((x : ℝ) : EReal) 0 = ((x : ℝ) : EReal) := by
  apply max_eq_left
  exact_mod_cast h

/-! ## The real 0/1 table under a 0/1-valued table -/

/-- The real entry: 1 where the table has 1, else 0. -/
private def re (o : OH) (c : Fin 64) (s : Fin 8) (w : Fin 1024) (k : Fin 128) : ℝ :=
  if o c s w k = 1 then 1 else 0

/-- The real occupancy count over the eight shots. -/
private def nn (o : OH) (c : Fin 64) (w : Fin 1024) (k : Fin 128) : ℝ := ∑ s : Fin 8, re o c s w k

private theorem o_eq (o : OH) (h01 : ∀ c s w k, o c s w k = 0 ∨ o c s w k = 1) (c : Fin 64) (s : Fin 8)
    (w : Fin 1024) (k : Fin 128) : o c s w k = ((re o c s w k : ℝ) : EReal) := by
  unfold re
  rcases h01 c s w k with h | h
  · rw [h, if_neg zero_ne_one, EReal.coe_zero]
  · rw [h, if_pos rfl, EReal.coe_one]

private theorem re_01 (o : OH) (c : Fin 64) (s : Fin 8) (w : Fin 1024) (k : Fin 128) :
    re o c s w k = 0 ∨ re o c s w k = 1 := by
  unfold re; split
  · exact Or.inr rfl
  · exact Or.inl rfl

private theorem sum_o (o : OH) (h01 : ∀ c s w k, o c s w k = 0 ∨ o c s w k = 1) (c : Fin 64)
    (w : Fin 1024) (k : Fin 128) : (∑ s : Fin 8, o c s w k) = ((nn o c w k : ℝ) : EReal) := by
  unfold nn
  rw [← coe_sum]
  exact Finset.sum_congr rfl (fun s _ => o_eq o h01 c s w k)

/-! ## Over the class-sets -/

/-- The sum of squared deviations of n from its mean over the 64 class-sets. -/
private def Vk (n : Fin 64 → ℝ) : ℝ := ∑ c, (n c - (∑ c, n c) / 64) * (n c - (∑ c, n c) / 64)
/-- The same of n / 8. -/
private def Vr (n : Fin 64 → ℝ) : ℝ :=
  ∑ c, (n c / 8 - (∑ c, n c / 8) / 64) * (n c / 8 - (∑ c, n c / 8) / 64)

private theorem Vk_nonneg (n : Fin 64 → ℝ) : 0 ≤ Vk n := by
  unfold Vk; exact Finset.sum_nonneg (fun c _ => mul_self_nonneg _)

private theorem Vr_nonneg (n : Fin 64 → ℝ) : 0 ≤ Vr n := by
  unfold Vr; exact Finset.sum_nonneg (fun c _ => mul_self_nonneg _)

/-- Scaling by 1/8 scales each deviation by 1/8, hence the sum of squares by 1/64. -/
private theorem Vr_eq (n : Fin 64 → ℝ) : Vr n = Vk n / 64 := by
  unfold Vr Vk
  have hs : (∑ c : Fin 64, n c / 8) = (∑ c : Fin 64, n c) / 8 := (Finset.sum_div _ _ _).symm
  rw [hs]
  refine Eq.trans ?_ (Finset.sum_div _ _ _).symm
  refine Finset.sum_congr rfl (fun c _ => ?_)
  ring

/-- √(V / 63) / 8 = √(V / 64 / 63), because V / 63 = (V / 64 / 63) · 8². -/
private theorem kstd_real (n : Fin 64 → ℝ) :
    Real.sqrt (Vk n / 63) / 8 = Real.sqrt (Vr n / 63) := by
  rw [Vr_eq]
  have h1 : Vk n / 63 = (Vk n / 64 / 63) * (8 * 8) := by ring
  rw [h1, Real.sqrt_mul' _ (by norm_num), Real.sqrt_mul_self (by norm_num)]
  exact mul_div_cancel_right₀ _ (by norm_num)

/-- The kernel's deviation as a real, given the counts as reals. -/
private theorem kstd_coe (ob : OHB) (w k : Fin 128) (n : Fin 64 → ℝ)
    (hn : ∀ c, cnt ob c w k = ((n c : ℝ) : EReal)) :
    kstd ob w k = ((Real.sqrt (Vk n / 63) / 8 : ℝ) : EReal) := by
  have hmu : kmu ob w k = (((∑ c, n c) / 64 : ℝ) : EReal) := by
    unfold kmu; simp only [hn]; rw [coe_sum, div_coe_coe _ (by norm_num)]
  have hV : (∑ c : Fin 64, (cnt ob c w k - kmu ob w k) * (cnt ob c w k - kmu ob w k))
      = ((Vk n : ℝ) : EReal) := by
    unfold Vk; rw [← coe_sum]; refine Finset.sum_congr rfl (fun c _ => ?_)
    rw [hn, hmu, ← EReal.coe_sub, ← EReal.coe_mul]
  have hV0 : 0 ≤ Vk n / 63 := div_nonneg (Vk_nonneg n) (by norm_num)
  unfold kstd
  rw [hV, div_coe_coe _ (by norm_num), max_coe_zero hV0, sqrt_coe_nonneg hV0, div_coe_coe _ (by norm_num)]

/-- The reference's deviation as a real, given the shot sums as reals. -/
private theorem rstd_coe (o : OH) (w : Fin 1024) (k : Fin 128) (n : Fin 64 → ℝ)
    (hn : ∀ c, (∑ s : Fin 8, o c s w k) = ((n c : ℝ) : EReal)) :
    rstd o w k = ((Real.sqrt (Vr n / 63) : ℝ) : EReal) := by
  have hm : ∀ c, rmean8 o c w k = ((n c / 8 : ℝ) : EReal) := by
    intro c; unfold rmean8; rw [hn, div_coe_coe _ (by norm_num)]
  have hmu : rmu o w k = (((∑ c, n c / 8) / 64 : ℝ) : EReal) := by
    unfold rmu; simp only [hm]; rw [coe_sum, div_coe_coe _ (by norm_num)]
  have hV : (∑ c : Fin 64, (rmean8 o c w k - rmu o w k) * (rmean8 o c w k - rmu o w k))
      = ((Vr n : ℝ) : EReal) := by
    unfold Vr; rw [← coe_sum]; refine Finset.sum_congr rfl (fun c _ => ?_)
    rw [hm, hmu, ← EReal.coe_sub, ← EReal.coe_mul]
  unfold rstd
  rw [hV, div_coe_coe _ (by norm_num), sqrt_coe_nonneg (div_nonneg (Vr_nonneg n) (by norm_num))]

private theorem kstd_eq_aux (o : OH) (h01 : ∀ c s w k, o c s w k = 0 ∨ o c s w k = 1) (ob : OHB)
    (w k : Fin 128) (w' : Fin 1024) (hob : ∀ c s, ob c s w k = o c s w' k) :
    kstd ob w k = rstd o w' k := by
  have hk : ∀ c, cnt ob c w k = ((nn o c w' k : ℝ) : EReal) := by
    intro c; unfold cnt; simp only [hob]; exact sum_o o h01 c w' k
  rw [kstd_coe ob w k (fun c => nn o c w' k) hk,
    rstd_coe o w' k (fun c => nn o c w' k) (fun c => sum_o o h01 c w' k), kstd_real]

/-- Over the class-sets: the deviation of the count n, rescaled by the 8 shots, is the deviation of n / 8.
    √(max(Σ_c (n_c − n̄)² / 63, 0)) / 8 = √(Σ_c (n_c/8 − mean(n/8))² / 63): the sum of squares is non-negative
    and √(V) / 8 = √(V / 64). -/
theorem kstd_eq (o : OH) (h01 : ∀ c s w k, o c s w k = 0 ∨ o c s w k = 1) (t : Fin 8) (w k : Fin 128) :
    kstd (tile o t) w k = rstd o ⟨128 * t.val + w.val, by omega⟩ k :=
  kstd_eq_aux o h01 (tile o t) w k _ (fun _ _ => rfl)

/-! ## Over the shots -/

/-- For b_s ∈ {0, 1} with sum n: b_s² = b_s, so Σ_s (b_s − n/8)² = n − n²/8, and dividing by 7 gives
    n (8 − n) / 56. -/
private theorem kcls_real (b : Fin 8 → ℝ) (hb : ∀ s, b s = 0 ∨ b s = 1) :
    (∑ s, (b s - (∑ s, b s) / 8) * (b s - (∑ s, b s) / 8)) / 7 = (∑ s, b s) * (8 - ∑ s, b s) / 56 := by
  have hsq : ∀ s, b s * b s = b s := by
    intro s; rcases hb s with h | h <;> rw [h] <;> norm_num
  simp only [Fin.sum_univ_eight]
  linear_combination (1 / 7 : ℝ) * (hsq 0 + hsq 1 + hsq 2 + hsq 3 + hsq 4 + hsq 5 + hsq 6 + hsq 7)

private theorem nn_nonneg (o : OH) (c : Fin 64) (w : Fin 1024) (k : Fin 128) : 0 ≤ nn o c w k := by
  unfold nn
  refine Finset.sum_nonneg (fun s _ => ?_)
  rcases re_01 o c s w k with h | h <;> rw [h] <;> norm_num

private theorem nn_le (o : OH) (c : Fin 64) (w : Fin 1024) (k : Fin 128) : nn o c w k ≤ 8 := by
  unfold nn
  calc (∑ s : Fin 8, re o c s w k) ≤ ∑ _s : Fin 8, (1 : ℝ) := by
        refine Finset.sum_le_sum (fun s _ => ?_)
        rcases re_01 o c s w k with h | h <;> rw [h] <;> norm_num
    _ = 8 := by simp

/-- The kernel's closed form as a real, given the count as a real in [0, 8]. -/
private theorem kcls_coe (ob : OHB) (c : Fin 64) (w k : Fin 128) (n : ℝ)
    (hn : cnt ob c w k = ((n : ℝ) : EReal)) (h0 : 0 ≤ n) (h8 : n ≤ 8) :
    kcls ob c w k = ((Real.sqrt (n * (8 - n) / 56) : ℝ) : EReal) := by
  have hq : 0 ≤ n * (8 - n) / 56 := div_nonneg (mul_nonneg h0 (sub_nonneg.mpr h8)) (by norm_num)
  unfold kcls
  rw [hn, ← EReal.coe_sub, ← EReal.coe_mul, div_coe_coe _ (by norm_num), max_coe_zero hq,
    sqrt_coe_nonneg hq]

/-- The reference's deviation over the shots as a real, given the entries as reals. -/
private theorem rcls_coe (o : OH) (c : Fin 64) (w : Fin 1024) (k : Fin 128) (b : Fin 8 → ℝ)
    (hb : ∀ s, o c s w k = ((b s : ℝ) : EReal)) :
    rcls o c w k
      = ((Real.sqrt ((∑ s, (b s - (∑ s, b s) / 8) * (b s - (∑ s, b s) / 8)) / 7) : ℝ) : EReal) := by
  have hm : rmean8 o c w k = (((∑ s, b s) / 8 : ℝ) : EReal) := by
    unfold rmean8; simp only [hb]; rw [coe_sum, div_coe_coe _ (by norm_num)]
  have hV : (∑ s : Fin 8, (o c s w k - rmean8 o c w k) * (o c s w k - rmean8 o c w k))
      = ((∑ s, (b s - (∑ s, b s) / 8) * (b s - (∑ s, b s) / 8) : ℝ) : EReal) := by
    rw [← coe_sum]; refine Finset.sum_congr rfl (fun s _ => ?_)
    rw [hb, hm, ← EReal.coe_sub, ← EReal.coe_mul]
  unfold rcls
  rw [hV, div_coe_coe _ (by norm_num),
    sqrt_coe_nonneg (div_nonneg (Finset.sum_nonneg (fun s _ => mul_self_nonneg _)) (by norm_num))]

private theorem kcls_eq_aux (o : OH) (h01 : ∀ c s w k, o c s w k = 0 ∨ o c s w k = 1) (ob : OHB)
    (c : Fin 64) (w k : Fin 128) (w' : Fin 1024) (hob : ∀ s, ob c s w k = o c s w' k) :
    kcls ob c w k = rcls o c w' k := by
  have hk : cnt ob c w k = ((nn o c w' k : ℝ) : EReal) := by
    unfold cnt; simp only [hob]; exact sum_o o h01 c w' k
  rw [kcls_coe ob c w k (nn o c w' k) hk (nn_nonneg o c w' k) (nn_le o c w' k),
    rcls_coe o c w' k (fun s => re o c s w' k) (fun s => o_eq o h01 c s w' k),
    kcls_real (fun s => re o c s w' k) (fun s => re_01 o c s w' k)]
  rfl

/-- Over the shots: for a 0/1 sequence b with sum n, Σ_s (b_s − n/8)² = n − n²/8 = n (8 − n) / 8, so
    Σ_s (b_s − n/8)² / 7 = n (8 − n) / 56, which is non-negative since 0 ≤ n ≤ 8. -/
theorem kcls_eq (o : OH) (h01 : ∀ c s w k, o c s w k = 0 ∨ o c s w k = 1) (t : Fin 8) (c : Fin 64) (w k : Fin 128) :
    kcls (tile o t) c w k = rcls o c ⟨128 * t.val + w.val, by omega⟩ k :=
  kcls_eq_aux o h01 (tile o t) c w k _ (fun _ => rfl)

end Cert.Spec

end
-- ==== Proof.Bridge.lean ====
/-
  The kernel's tile-by-tile sums are the reference's sums over the flattened (position, class) axis, and with the
  pointwise identities the two results agree.
-/
import proofs.«112873_j75222057222180_1_alg».proof.Proof.Spec
import proofs.«112873_j75222057222180_1_alg».proof.Proof.BridgePt
import Mathlib.Algebra.BigOperators.Group.Finset.Defs
import Mathlib.Data.Fintype.BigOperators

noncomputable section

namespace Cert.Spec

open Idealize.ShloMosaic

/-- The flattening (t, w, k) ↦ (128 t + w) · 128 + k is a bijection from tile × position × class onto the
    flattened axis; its inverse reads t = j / 16384, w = j / 128 mod 128, k = j mod 128. -/
private def flatEquiv : Fin 8 × Fin 128 × Fin 128 ≃ Fin 131072 where
  toFun p := ⟨(128 * p.1.val + p.2.1.val) * 128 + p.2.2.val, by
    have h1 := p.1.isLt; have h2 := p.2.1.isLt; have h3 := p.2.2.isLt; omega⟩
  invFun j := (⟨j.val / 16384, by have := j.isLt; omega⟩,
               ⟨j.val / 128 % 128, Nat.mod_lt _ (by norm_num)⟩,
               ⟨j.val % 128, Nat.mod_lt _ (by norm_num)⟩)
  left_inv := by
    rintro ⟨t, w, k⟩
    have ht := t.isLt; have hw := w.isLt; have hk := k.isLt
    refine Prod.ext (Fin.ext ?_) (Prod.ext (Fin.ext ?_) (Fin.ext ?_))
    · show ((128 * t.val + w.val) * 128 + k.val) / 16384 = t.val
      omega
    · show ((128 * t.val + w.val) * 128 + k.val) / 128 % 128 = w.val
      omega
    · show ((128 * t.val + w.val) * 128 + k.val) % 128 = k.val
      omega
  right_inv := by
    intro j
    have hj := j.isLt
    refine Fin.ext ?_
    show (128 * (j.val / 16384) + j.val / 128 % 128) * 128 + j.val % 128 = j.val
    omega

/-- Position of the flattened image of (t, w, k): 128 t + w. -/
private theorem wOf_flat (t : Fin 8) (w k : Fin 128) :
    wOf (flatEquiv (t, w, k)) = ⟨128 * t.val + w.val, by omega⟩ := by
  have ht := t.isLt; have hw := w.isLt; have hk := k.isLt
  refine Fin.ext ?_
  show ((128 * t.val + w.val) * 128 + k.val) / 128 = 128 * t.val + w.val
  omega

/-- Class of the flattened image of (t, w, k): k. -/
private theorem kOf_flat (t : Fin 8) (w k : Fin 128) : kOf (flatEquiv (t, w, k)) = k := by
  have ht := t.isLt; have hw := w.isLt; have hk := k.isLt
  refine Fin.ext ?_
  show ((128 * t.val + w.val) * 128 + k.val) % 128 = k.val
  omega

/-- A sum over the flattened index j = 128 w + k, w = 128 t + w', regrouped by tile, position in the tile, class. -/
theorem sum_flat (f : Fin 1024 → Fin 128 → EReal) :
    ∑ j : Fin 131072, f (wOf j) (kOf j)
      = ∑ t : Fin 8, ∑ w : Fin 128, ∑ k : Fin 128, f ⟨128 * t.val + w.val, by omega⟩ k := by
  -- re-index along the bijection, then split the sum over the product into iterated sums
  rw [← Equiv.sum_comp flatEquiv (fun j => f (wOf j) (kOf j)), Fintype.sum_prod_type]
  refine Finset.sum_congr rfl fun t _ => ?_
  rw [Fintype.sum_prod_type]
  refine Finset.sum_congr rfl fun w _ => ?_
  refine Finset.sum_congr rfl fun k _ => ?_
  rw [wOf_flat, kOf_flat]

/-- The two results agree on a table of 0/1 entries. -/
theorem Kres_eq_Rres (o : OH) (h01 : ∀ c s w k, o c s w k = 0 ∨ o c s w k = 1) : Kres o = Rres o := by
  -- the inter-class sums: tile by tile against the flattened axis, summand by summand
  have hP : ∑ t : Fin 8, tileP (tile o t) = ∑ j : Fin 131072, rstd o (wOf j) (kOf j) := by
    rw [sum_flat (fun w k => rstd o w k)]
    refine Finset.sum_congr rfl fun t _ => ?_
    unfold tileP
    refine Finset.sum_congr rfl fun w _ => ?_
    refine Finset.sum_congr rfl fun k _ => ?_
    exact kstd_eq o h01 t w k
  -- the in-class sums, one class-set at a time
  have hQ : ∑ c : Fin 64, ∑ t : Fin 8, tileQ (tile o t) c
      = ∑ c : Fin 64, ∑ j : Fin 131072, rcls o c (wOf j) (kOf j) := by
    refine Finset.sum_congr rfl fun c _ => ?_
    rw [sum_flat (fun w k => rcls o c w k)]
    refine Finset.sum_congr rfl fun t _ => ?_
    unfold tileQ
    refine Finset.sum_congr rfl fun w _ => ?_
    refine Finset.sum_congr rfl fun k _ => ?_
    exact kcls_eq o h01 t c w k
  unfold Kres Rres
  rw [hP, hQ]

end Cert.Spec

end
-- ==== Proof.Consts.lean ====
/-
  The float constants the two programs spell, as the reals their bit patterns denote.
-/
import Idealize.ShloMosaic.PureOps.Ideal

noncomputable section

namespace Cert.Consts

open Idealize.ShloMosaic

theorem ofBits_0 : Ideal.ofBits .f32 0x00000000#32 = 0 := by
  simp [Ideal.ofBits, Ideal.ieee]
theorem ofBits_1 : Ideal.ofBits .f32 0x3F800000#32 = ((1 : ℝ) : EReal) := by
  simp [Ideal.ofBits, Ideal.ieee, -EReal.coe_mul]; norm_num
theorem ofBits_8 : Ideal.ofBits .f32 0x41000000#32 = ((8 : ℝ) : EReal) := by
  simp [Ideal.ofBits, Ideal.ieee, -EReal.coe_mul]; norm_num
theorem ofBits_56 : Ideal.ofBits .f32 0x42600000#32 = ((56 : ℝ) : EReal) := by
  simp [Ideal.ofBits, Ideal.ieee, -EReal.coe_mul]; norm_num
theorem ofBits_63 : Ideal.ofBits .f32 0x427C0000#32 = ((63 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num

end Cert.Consts

end
-- ==== Proof.KerPay.lean ====
/-
  The kernel body's arithmetic, read at the extended reals: the occupancy count built from the eight shot slabs of a
  tile, the two tile sums added to the carried accumulators, and the closing expression of the last grid point.
-/
import proofs.«112873_j75222057222180_1_alg».proof.KernelIdeal
import proofs.«112873_j75222057222180_1_alg».proof.Proof.Gen.KernelIdeal.Skeleton
import proofs.«112873_j75222057222180_1_alg».proof.Proof.Spec
import proofs.«112873_j75222057222180_1_alg».proof.Proof.Consts
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KerPay

open Cert.KernelIdeal Cert.KernelIdeal.Gen Idealize.ShloMosaic Idealize.ShloMosaic.ValueIdx Cert.Spec

variable {F : FTy → Type} [FloatOps F]

/-- The eight shot slabs of a tile of labels, each 64 × 1 × 128. -/
abbrev Slabs := Fin 8 → IVec S64x1x128 32

/-- The class index along the last axis. -/
def iota3 : IVec S64x128x128 32 := iota .tc S64x128x128 32 [2] iota_S64x128x128_d2_w32

/-- The count after seven shots, as the body's payloads chain it. -/
def N7 (v : Slabs) : FVec F S64x128x128 .f32 :=
  k0_pay7 iota3 (k0_pay5 (v 0) (v 1) (v 2)) (k0_pay6 (F := F) (v 3)) (v 4) (v 5) (v 6)
/-- The eighth shot's comparison, widened. -/
def N8 (v : Slabs) : IVec S64x128x128 32 := k0_pay8 (F := F) iota3 (v 7)

/-- The one-hot table of a tile given by its slabs. -/
def ohL (v : Slabs) : OHB := fun c s w k => hot (v s (ix3 c 0 w)) k

/-! ## Layout operations of the body, read at an index given by coordinates -/

section Layout
variable {α : Type}

/-- A `[a, 1, b]` array cast to `[a, b]` reads, at `(i, j)`, the operand at `(i, 0, j)`. -/
private theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, b, 1]` reads, at `(i, j, u)`, the operand at `(i, j)`. -/
private theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, n]` reads, at `(i, j, k)`, the operand at `(i, j, 0)`. -/
private theorem broadcastTo_ab1_abn_apply {a b n : ℕ} (x : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, a, b]` array broadcast to `[m, a, b]` reads, at `(p, i, j)`, the operand at `(0, i, j)`. -/
private theorem broadcastTo_1ab_mab_apply {m a b : ℕ} (x : (⟨3, ![1, a, b]⟩ : Shape).Idx → α)
    (h : (⟨3, ![1, a, b]⟩ : Shape).Broadcasts ⟨3, ![m, a, b]⟩) (p : Fin m) (i : Fin a) (j : Fin b) :
    broadcastTo ⟨3, ![m, a, b]⟩ x h (ix3 p i j) = x (ix3 (0 : Fin 1) i j) := by
  refine broadcastTo_apply x h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

end Layout

/-! ## Lane sums of the body, read at an index given by coordinates -/

section Sums

/-- A sum of an `[m, a, b]` array over its first axis reads, at `(i, j)`, the sum over `p` of the operand at `(p, i, j)`. -/
private theorem sum3_axis0_apply {m a b : ℕ} (src : FVec Ideal ⟨3, ![m, a, b]⟩ .f32)
    (h : (⟨3, ![m, a, b]⟩ : Shape).Reduces [0] ⟨2, ![a, b]⟩) (hφ : FKind.Formats .f32)
    (hacc : (0x00000000#32 : BitVec 32) = 0x00000000#32) (i : Fin a) (j : Fin b) :
    multiReduction .add [0] ⟨2, ![a, b]⟩ src 0x00000000#32 h hφ hacc (ix2 i j) = ∑ p : Fin m, src (ix3 p i j) := by
  refine (Ideal.multiReduction_add_single src _ h hφ hacc (ix2 i j)).trans ?_
  refine Finset.sum_congr rfl fun p _ => congrArg src ?_
  funext ax; refine Fin.ext ?_
  match ax with
  | ⟨0, _⟩ => rfl
  | ⟨1, _⟩ => rfl
  | ⟨2, _⟩ => rfl

/-- A sum of an `[m, a, b]` array over its last axis reads, at `(p, i)`, the sum over `j` of the operand at `(p, i, j)`. -/
private theorem sum3_axis2_apply {m a b : ℕ} (src : FVec Ideal ⟨3, ![m, a, b]⟩ .f32)
    (h : (⟨3, ![m, a, b]⟩ : Shape).Reduces [2] ⟨2, ![m, a]⟩) (hφ : FKind.Formats .f32)
    (hacc : (0x00000000#32 : BitVec 32) = 0x00000000#32) (p : Fin m) (i : Fin a) :
    multiReduction .add [2] ⟨2, ![m, a]⟩ src 0x00000000#32 h hφ hacc (ix2 p i) = ∑ j : Fin b, src (ix3 p i j) := by
  refine (Ideal.multiReduction_add_single src _ h hφ hacc (ix2 p i)).trans ?_
  refine Finset.sum_congr rfl fun j _ => congrArg src ?_
  funext ax; refine Fin.ext ?_
  match ax with
  | ⟨0, _⟩ => rfl
  | ⟨1, _⟩ => rfl
  | ⟨2, _⟩ => rfl

/-- A sum of an `[a, b]` array over its last axis reads, at `i`, the sum over `j` of the operand at `(i, j)`. -/
private theorem sum2_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ j : Fin b, src (ix2 i j) := by
  refine (Ideal.multiReduction_add_single src _ h hφ hacc (ix1 i)).trans ?_
  refine Finset.sum_congr rfl fun j _ => congrArg src ?_
  funext ax; refine Fin.ext ?_
  match ax with
  | ⟨0, _⟩ => rfl
  | ⟨1, _⟩ => rfl

/-- A sum of an `[a, b]` array over its first axis reads, at `j`, the sum over `i` of the operand at `(i, j)`. -/
private theorem sum2_axis0_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ src 0x00000000#32 h hφ hacc (ix1 j) = ∑ i : Fin a, src (ix2 i j) := by
  refine (Ideal.multiReduction_add_single src _ h hφ hacc (ix1 j)).trans ?_
  refine Finset.sum_congr rfl fun i _ => congrArg src ?_
  funext ax; refine Fin.ext ?_
  match ax with
  | ⟨0, _⟩ => rfl
  | ⟨1, _⟩ => rfl

end Sums

/-! ## One shot's comparison with the class index, as a number -/

section Shot

/-- One shot slab less one, spread over the classes, compared with the class index and widened to a word. -/
private def cmpW (x : IVec S64x1x128 32) : IVec S64x128x128 32 :=
  extui 32 (cmpi .eq (broadcastTo S64x128x128 (shapeCast S64x128x1 (subi (shapeCast S64x128 x shapeCasts_S64x1x128_S64x128)
    (broadcast S64x128 1#32)) shapeCasts_S64x128_S64x128x1) broadcasts_S64x128x1_S64x128x128) iota3) natLt_1_32

/-- At `(c, w, k)` that word is the one-bit answer to "label minus one is `k`", widened. -/
private theorem cmpW_apply (x : IVec S64x1x128 32) (c : Fin 64) (w k : Fin 128) :
    cmpW x (ix3 c w k) = (IntOp.cmpi .eq (x (ix3 c (0 : Fin 1) w) - 1#32) (BitVec.ofNat 32 k.val)).setWidth 32 := by
  have e1 : broadcastTo S64x128x128 (shapeCast S64x128x1 (subi (shapeCast S64x128 x shapeCasts_S64x1x128_S64x128)
      (broadcast S64x128 1#32)) shapeCasts_S64x128_S64x128x1) broadcasts_S64x128x1_S64x128x128 (ix3 c w k)
      = x (ix3 c (0 : Fin 1) w) - 1#32 := by
    refine (broadcastTo_ab1_abn_apply _ _ c w k).trans ?_
    refine (shapeCast_ab_ab1_apply _ _ c w 0).trans ?_
    show IntOp.subi (shapeCast S64x128 x shapeCasts_S64x1x128_S64x128 (ix2 c w)) 1#32 = _
    rw [shapeCast_a1b_ab_apply]; rfl
  have e2 : iota3 (ix3 c w k) = BitVec.ofNat 32 k.val := iota_single_apply _ _ _ _ _ _
  show (IntOp.cmpi .eq (broadcastTo S64x128x128 _ _ (ix3 c w k)) (iota3 (ix3 c w k))).setWidth 32 = _
  rw [e1, e2]

/-- Read signed and converted, the widened answer is the one-hot entry. -/
private theorem hot_of_word (v : BitVec 32) (k : Fin 128) :
    (FloatOps.sitofp (F := Ideal) .f32 ((IntOp.cmpi .eq (v - 1#32) (BitVec.ofNat 32 k.val)).setWidth 32) : EReal) = hot v k := by
  unfold hot
  by_cases h : v - 1#32 = BitVec.ofNat 32 k.val
  · have hb : (v - 1#32 == BitVec.ofNat 32 k.val) = true := by simpa using h
    rw [if_pos h]
    show ((((BitVec.ofBool (v - 1#32 == BitVec.ofNat 32 k.val)).setWidth 32).toInt : ℝ) : EReal) = 1
    rw [hb, show ((BitVec.ofBool true).setWidth 32).toInt = 1 by decide]
    simp
  · have hb : (v - 1#32 == BitVec.ofNat 32 k.val) = false := by simpa using h
    rw [if_neg h]
    show ((((BitVec.ofBool (v - 1#32 == BitVec.ofNat 32 k.val)).setWidth 32).toInt : ℝ) : EReal) = 0
    rw [hb, show ((BitVec.ofBool false).setWidth 32).toInt = 0 by decide]
    simp

/-- One shot's contribution to the count. -/
private def eHot (x : IVec S64x1x128 32) : FVec Ideal S64x128x128 .f32 := sitofp .f32 (cmpW x)

private theorem eHot_apply (x : IVec S64x1x128 32) (c : Fin 64) (w k : Fin 128) :
    eHot x (ix3 c w k) = hot (x (ix3 c (0 : Fin 1) w)) k := by
  show FloatOps.sitofp (F := Ideal) .f32 (cmpW x (ix3 c w k)) = _
  rw [cmpW_apply]; exact hot_of_word _ _

end Shot

/-! ## The occupancy count -/

/-- The body's count of a tile is the specification's count of the tile's one-hot table. -/
theorem pay9_apply (v : Slabs) (c : Fin 64) (w k : Fin 128) :
    k0_pay9 (N7 (F := Ideal) v) (N8 (F := Ideal) v) (ix3 c w k) = cnt (ohL v) c w k := by
  have h : k0_pay9 (N7 (F := Ideal) v) (N8 (F := Ideal) v) (ix3 c w k)
      = Ideal.ofBits .f32 0x00000000#32 + eHot (v 0) (ix3 c w k) + eHot (v 1) (ix3 c w k) + eHot (v 2) (ix3 c w k)
        + eHot (v 3) (ix3 c w k) + eHot (v 4) (ix3 c w k) + eHot (v 5) (ix3 c w k) + eHot (v 6) (ix3 c w k)
        + eHot (v 7) (ix3 c w k) := rfl
  rw [h]
  simp only [eHot_apply]
  rw [Cert.Consts.ofBits_0, zero_add]
  unfold cnt ohL
  rw [Fin.sum_univ_eight]

/-! ## The inter-class share of a tile -/

section Inter

/-- The count's mean over the class-sets, spread back over them, as the body computes it. -/
private def bMu (P : FVec Ideal S64x128x128 .f32) : FVec Ideal S64x128x128 .f32 :=
  broadcastTo S64x128x128 (divf (shapeCast S1x128x128 (multiReduction .add [0] S128x128 P 0x00000000#32
    reduces_S64x128x128_S128x128 (.inl rfl) rfl) shapeCasts_S128x128_S1x128x128)
    (broadcast S1x128x128 (Scalar.ofBits .f32 0x42800000#32))) broadcasts_S1x128x128_S64x128x128

private theorem bMu_apply (P : FVec Ideal S64x128x128 .f32) (c : Fin 64) (w k : Fin 128) :
    bMu P (ix3 c w k) = Ideal.div (∑ p : Fin 64, P (ix3 p w k)) ((64 : ℝ) : EReal) := by
  unfold bMu
  refine (broadcastTo_1ab_mab_apply _ _ c w k).trans ?_
  show Ideal.div (shapeCast S1x128x128 _ _ (ix3 (0 : Fin 1) w k)) (Ideal.ofBits .f32 0x42800000#32) = _
  rw [shapeCast_ab_1ab_apply, sum3_axis0_apply, Cert.Consts.ofBits_64]

/-- The count's deviation over the class-sets, clamped and rescaled, as the body computes it. -/
private def bStd (P : FVec Ideal S64x128x128 .f32) : FVec Ideal S128x128 .f32 :=
  divf (sqrt (maximumf (divf (multiReduction .add [0] S128x128 (mulf (subf P (bMu P)) (subf P (bMu P))) 0x00000000#32
    reduces_S64x128x128_S128x128 (.inl rfl) rfl) (broadcast S128x128 (Scalar.ofBits .f32 0x427C0000#32)))
    (broadcast S128x128 (Scalar.ofBits .f32 0x00000000#32)))) (broadcast S128x128 (Scalar.ofBits .f32 0x41000000#32))

private theorem bStd_apply (P : FVec Ideal S64x128x128 .f32) (w k : Fin 128) :
    bStd P (ix2 w k) = Ideal.div (Ideal.sqrt (max (Ideal.div (∑ p : Fin 64,
        (P (ix3 p w k) - Ideal.div (∑ q : Fin 64, P (ix3 q w k)) ((64 : ℝ) : EReal))
          * (P (ix3 p w k) - Ideal.div (∑ q : Fin 64, P (ix3 q w k)) ((64 : ℝ) : EReal)))
      ((63 : ℝ) : EReal)) 0)) ((8 : ℝ) : EReal) := by
  show Ideal.div (Ideal.sqrt (max (Ideal.div (multiReduction (F := Ideal) (φ := .f32) .add [0] S128x128 _ 0x00000000#32 _ _ _ (ix2 w k))
    (Ideal.ofBits .f32 0x427C0000#32)) (Ideal.ofBits .f32 0x00000000#32))) (Ideal.ofBits .f32 0x41000000#32) = _
  rw [sum3_axis0_apply, Cert.Consts.ofBits_63, Cert.Consts.ofBits_0, Cert.Consts.ofBits_8]
  simp only [mulf_apply, subf_apply, bMu_apply]

/-- The sum over a tile's positions and classes, lanes first, as the body computes it. -/
private def bSumP (X : FVec Ideal S128x128 .f32) : FVec Ideal S1x1 .f32 :=
  shapeCast S1x1 (multiReduction .add [0] S1 (shapeCast S128x1 (multiReduction .add [1] S128 X 0x00000000#32
    reduces_S128x128_S128 (.inl rfl) rfl) shapeCasts_S128_S128x1) 0x00000000#32 reduces_S128x1_S1 (.inl rfl) rfl)
    shapeCasts_S1_S1x1

private theorem bSumP_apply (X : FVec Ideal S128x128 .f32) (j : S1x1.Idx) :
    bSumP X j = ∑ w : Fin 128, ∑ k : Fin 128, X (ix2 w k) := by
  obtain ⟨u, z, rfl⟩ : ∃ (u z : Fin 1), j = ix2 u z := ⟨j 0, j 1, eq_ix2 j⟩
  unfold bSumP
  rw [shapeCast_a_1a_apply, sum2_axis0_apply]
  refine Finset.sum_congr rfl fun w _ => ?_
  rw [shapeCast_a_a1_apply, sum2_axis1_apply]

end Inter

/-- The inter-class accumulator after a tile: what it held plus the tile's share. -/
theorem pay10_eq (v : Slabs) (a : Vec Ideal S1x1 .f32) (j : S1x1.Idx) :
    k0_pay10 (N7 (F := Ideal) v) (N8 (F := Ideal) v) a j = a j + tileP (ohL v) := by
  have h : k0_pay10 (N7 (F := Ideal) v) (N8 (F := Ideal) v) a
      = shapeCast S1x1 (addf a (bSumP (bStd (k0_pay9 (N7 (F := Ideal) v) (N8 (F := Ideal) v))))) shapeCasts_S1x1_S1x1 := rfl
  rw [h, shapeCast_self]
  show a j + bSumP _ j = _
  rw [bSumP_apply]
  unfold tileP
  congr 1
  refine Finset.sum_congr rfl fun w _ => Finset.sum_congr rfl fun k _ => ?_
  rw [bStd_apply]
  simp only [pay9_apply]
  rfl

/-! ## The in-class share of a tile -/

section Intra

/-- The deviation over the shots in closed form, clamped, as the body computes it. -/
private def bCls (P : FVec Ideal S64x128x128 .f32) : FVec Ideal S64x128x128 .f32 :=
  sqrt (maximumf (divf (mulf P (subf (broadcast S64x128x128 (Scalar.ofBits .f32 0x41000000#32)) P))
    (broadcast S64x128x128 (Scalar.ofBits .f32 0x42600000#32))) (broadcast S64x128x128 (Scalar.ofBits .f32 0x00000000#32)))

private theorem bCls_apply (P : FVec Ideal S64x128x128 .f32) (i : S64x128x128.Idx) :
    bCls P i = Ideal.sqrt (max (Ideal.div (P i * (((8 : ℝ) : EReal) - P i)) ((56 : ℝ) : EReal)) 0) := by
  show Ideal.sqrt (max (Ideal.div (P i * (Ideal.ofBits .f32 0x41000000#32 - P i)) (Ideal.ofBits .f32 0x42600000#32))
    (Ideal.ofBits .f32 0x00000000#32)) = _
  rw [Cert.Consts.ofBits_8, Cert.Consts.ofBits_56, Cert.Consts.ofBits_0]

/-- The sum over a tile's positions and classes for each class-set, lanes first, as the body computes it. -/
private def bSumQ (X : FVec Ideal S64x128x128 .f32) : FVec Ideal S64x1 .f32 :=
  shapeCast S64x1 (multiReduction .add [1] S64 (multiReduction .add [2] S64x128 X 0x00000000#32
    reduces_S64x128x128_S64x128 (.inl rfl) rfl) 0x00000000#32 reduces_S64x128_S64 (.inl rfl) rfl) shapeCasts_S64_S64x1

private theorem bSumQ_apply (X : FVec Ideal S64x128x128 .f32) (c : Fin 64) (z : Fin 1) :
    bSumQ X (ix2 c z) = ∑ w : Fin 128, ∑ k : Fin 128, X (ix3 c w k) := by
  unfold bSumQ
  rw [shapeCast_a_a1_apply, sum2_axis1_apply]
  refine Finset.sum_congr rfl fun w _ => ?_
  rw [sum3_axis2_apply]

end Intra

/-- The in-class accumulator after a tile, per class-set. -/
theorem pay11_eq (v : Slabs) (b : Vec Ideal S64x1 .f32) (c : Fin 64) (z : Fin 1) :
    k0_pay11 (N7 (F := Ideal) v) (N8 (F := Ideal) v) b (ix2 c z) = b (ix2 c z) + tileQ (ohL v) c := by
  have h : k0_pay11 (N7 (F := Ideal) v) (N8 (F := Ideal) v) b
      = addf b (bSumQ (bCls (k0_pay9 (N7 (F := Ideal) v) (N8 (F := Ideal) v)))) := rfl
  rw [h]
  show b (ix2 c z) + bSumQ _ (ix2 c z) = _
  rw [bSumQ_apply]
  unfold tileQ
  congr 1
  refine Finset.sum_congr rfl fun w _ => Finset.sum_congr rfl fun k _ => ?_
  rw [bCls_apply, pay9_apply]
  rfl

/-! ## The closing expression and the initial values -/

/-- The closing expression: one over the inter-class sum plus the mean of the in-class sums. -/
theorem pay2_eq (a : Vec Ideal S1x1 .f32) (b : Vec Ideal S64x1 .f32) (j : S1x1.Idx) :
    k0_pay2 a b j = Ideal.div ((1 : ℝ) : EReal) (a j) + Ideal.div (∑ c : Fin 64, b (ix2 c 0)) ((64 : ℝ) : EReal) := by
  obtain ⟨u, z, rfl⟩ : ∃ (u z : Fin 1), j = ix2 u z := ⟨j 0, j 1, eq_ix2 j⟩
  obtain rfl : z = 0 := Subsingleton.elim _ _
  show Ideal.div (Ideal.ofBits .f32 0x3F800000#32) (a (ix2 u 0))
    + Ideal.div (shapeCast S1x1 (multiReduction (F := Ideal) .add [0] S1 b 0x00000000#32 reduces_S64x1_S1 (.inl rfl) rfl)
        shapeCasts_S1_S1x1 (ix2 u 0)) (Ideal.ofBits .f32 0x42800000#32) = _
  rw [shapeCast_a_1a_apply, sum2_axis0_apply, Cert.Consts.ofBits_1, Cert.Consts.ofBits_64]

theorem pay1_eq (b : FVec F S64x1 .f32) : k0_pay1 b = b := by
  unfold k0_pay1
  exact shapeCast_self b _

theorem pay3_eq (j : S1x1.Idx) : k0_pay3 (F := Ideal) j = 0 := by
  show shapeCast S1x1 (broadcast S1x1 (Ideal.ofBits .f32 0x00000000#32)) shapeCasts_S1x1_S1x1 j = 0
  rw [shapeCast_self, broadcast_apply, Cert.Consts.ofBits_0]

theorem pay4_eq (j : S64x1.Idx) : k0_pay4 (F := Ideal) j = 0 := by
  show shapeCast S64x1 (broadcast S64x1 (Ideal.ofBits .f32 0x00000000#32)) shapeCasts_S64x1_S64x1 j = 0
  rw [shapeCast_self, broadcast_apply, Cert.Consts.ofBits_0]

end Cert.KernelIdeal.KerPay

end
-- ==== Proof.KerPieces.lean ====
/-
  What each control case of the kernel body leaves in the two carried accumulators and in the output block, as the
  body's payloads applied to the tile's eight shot slabs: the first grid point starts from the zeros it has just
  stored, the later points from what the point before left, and the last point also writes the closing expression.
-/
import proofs.«112873_j75222057222180_1_alg».proof.Proof.Gen.KernelIdeal.Frame
import proofs.«112873_j75222057222180_1_alg».proof.Proof.KerPay
import Idealize.ShloMosaic.Lib.Pipeline.Value
import Idealize.ShloMosaic.Lib.Tactic

noncomputable section

namespace Cert.KernelIdeal.KerPieces

open Idealize.ShloMosaic Idealize.ShloMosaic.TcCoe Idealize.SL.Sem Idealize.ShloMosaic.ValueIdx
open Cert.KernelIdeal Cert.KernelIdeal.Gen Cert.KernelIdeal.KerPay

variable {F : FTy → Type} [FloatOps F]

/-- Shot slab `s` of a tile: the labels at (class-set, s, position). -/
def slabs (x0 : Vec F S64x8x128 .i32) : Slabs :=
  fun s j => x0 (ix3 (⟨(j 0).val, (j 0).isLt⟩ : Fin 64) s (⟨(j 2).val, (j 2).isLt⟩ : Fin 128))

/-- The zero offsets of a rank-two block, spelt as the constant function. -/
private theorem hz2 : (![0, 0] : Fin 2 → Nat) = fun _ => 0 := funext fun a => by fin_cases a <;> rfl

/-- Reading the tile through the unit-stride rectangle at offset (0, s, 0) of extent 64 × 1 × 128 gives shot slab `s`:
    the rectangle's local position (a, 0, w) sits at (a, s, w) of the tile. -/
private theorem ld_slab (x0 : Vec F S64x8x128 .i32) (s : Fin 8) (off : Fin 3 → Nat) (hoff : off = ![0, s.val, 0])
    (inb : ∀ a, off a + S64x1x128.size a ≤ S64x8x128.size a) :
    View.ld x0 (Rect.unit (s := S64x8x128) off S64x1x128.size inb) = slabs x0 s := by
  subst hoff
  funext j
  show x0 _ = x0 _
  congr 1
  funext a
  apply Fin.ext
  match a with
  | ⟨0, _⟩ => show 0 + 1 * (j 0).val = (j 0).val; omega
  | ⟨1, _⟩ => have h1 : (j 1).val < 1 := (j 1).isLt; show s.val + 1 * (j 1).val = s.val; omega
  | ⟨2, _⟩ => show 0 + 1 * (j 2).val = (j 2).val; omega

/-- First point, inter-class accumulator: the zero just stored plus the tile's share. -/
theorem sA0 (c : Dev nD) (i : grid0.Coords) (arg1 : Memref sig .tc .vmem S64x8x128 .i32) (harg1 : arg1.IsWhole) (arg2 : Memref sig .tc .vmem S1x1 .f32) (harg2 : arg2.IsWhole) (arg3 : Memref sig .tc .vmem S1x1 .f32) (harg3 : arg3.IsWhole) (arg4 : Memref sig .tc .vmem S64x1 .f32) (harg4 : arg4.IsWhole) (hc0 : cond0_0 i) (hc1 : ¬cond0_1 i) (x0 : Vec F S64x8x128 .i32) :
    sout0_A_0 c i arg1 harg1 arg2 harg2 arg3 harg3 arg4 harg4 hc0 hc1 x0 = k0_pay10 (N7 (slabs x0)) (N8 (F := F) (slabs x0)) k0_pay3 := by
  unfold sout0_A_0
  rw [View.read_writes_eq_canon _ _ _ (scover0_A_0 c i arg1 harg1 arg2 harg2 arg3 harg3 arg4 harg4 hc0 hc1 x0)]
  unfold kernelRun0_A
  dsimp only
  sl_unfold_words
  rw [View.canon_cons_unit_zero (S := S1x1) hz2, View.readCov_unit_zero (S := S1x1) _ hz2]
  unfold N7 N8 iota3
  simp only [View.readAt_eq_ld, harg1.read_unread, harg3.read_unread, harg4.read_unread,
    View.ld_unit_zero (S := S1x1) hz2, View.ld_unit_zero (S := S64x1) hz2,
    ld_slab x0 0 ![0, 0, 0] rfl, ld_slab x0 1 ![0, 1, 0] rfl, ld_slab x0 2 ![0, 2, 0] rfl, ld_slab x0 3 ![0, 3, 0] rfl,
    ld_slab x0 4 ![0, 4, 0] rfl, ld_slab x0 5 ![0, 5, 0] rfl, ld_slab x0 6 ![0, 6, 0] rfl, ld_slab x0 7 ![0, 7, 0] rfl]

/-- First point, in-class accumulator. -/
theorem sA1 (c : Dev nD) (i : grid0.Coords) (arg1 : Memref sig .tc .vmem S64x8x128 .i32) (harg1 : arg1.IsWhole) (arg2 : Memref sig .tc .vmem S1x1 .f32) (harg2 : arg2.IsWhole) (arg3 : Memref sig .tc .vmem S1x1 .f32) (harg3 : arg3.IsWhole) (arg4 : Memref sig .tc .vmem S64x1 .f32) (harg4 : arg4.IsWhole) (hc0 : cond0_0 i) (hc1 : ¬cond0_1 i) (x0 : Vec F S64x8x128 .i32) :
    sout0_A_1 c i arg1 harg1 arg2 harg2 arg3 harg3 arg4 harg4 hc0 hc1 x0 = k0_pay1 (k0_pay11 (N7 (slabs x0)) (N8 (F := F) (slabs x0)) k0_pay4) := by
  unfold sout0_A_1
  rw [View.read_writes_eq_canon _ _ _ (scover0_A_1 c i arg1 harg1 arg2 harg2 arg3 harg3 arg4 harg4 hc0 hc1 x0)]
  unfold kernelRun0_A
  dsimp only
  sl_unfold_words
  rw [View.canon_cons_unit_zero (S := S64x1) hz2, View.readCov_unit_zero (S := S64x1) _ hz2]
  unfold N7 N8 iota3
  simp only [View.readAt_eq_ld, harg1.read_unread, harg3.read_unread, harg4.read_unread,
    View.ld_unit_zero (S := S1x1) hz2, View.ld_unit_zero (S := S64x1) hz2,
    ld_slab x0 0 ![0, 0, 0] rfl, ld_slab x0 1 ![0, 1, 0] rfl, ld_slab x0 2 ![0, 2, 0] rfl, ld_slab x0 3 ![0, 3, 0] rfl,
    ld_slab x0 4 ![0, 4, 0] rfl, ld_slab x0 5 ![0, 5, 0] rfl, ld_slab x0 6 ![0, 6, 0] rfl, ld_slab x0 7 ![0, 7, 0] rfl]

/-- Middle points, inter-class accumulator: what the point before left plus the tile's share. -/
theorem sB0 (c : Dev nD) (i : grid0.Coords) (arg1 : Memref sig .tc .vmem S64x8x128 .i32) (harg1 : arg1.IsWhole) (arg2 : Memref sig .tc .vmem S1x1 .f32) (harg2 : arg2.IsWhole) (arg3 : Memref sig .tc .vmem S1x1 .f32) (harg3 : arg3.IsWhole) (arg4 : Memref sig .tc .vmem S64x1 .f32) (harg4 : arg4.IsWhole) (hc0 : ¬cond0_0 i) (hc1 : ¬cond0_1 i) (x0 : Vec F S64x8x128 .i32) (xs0 : Vec F S1x1 .f32) (xs1 : Vec F S64x1 .f32) :
    sout0_B_0 c i arg1 harg1 arg2 harg2 arg3 harg3 arg4 harg4 hc0 hc1 x0 xs0 xs1 = k0_pay10 (N7 (slabs x0)) (N8 (F := F) (slabs x0)) xs0 := by
  unfold sout0_B_0
  rw [View.read_writes_eq_canon _ _ _ (scover0_B_0 c i arg1 harg1 arg2 harg2 arg3 harg3 arg4 harg4 hc0 hc1 x0 xs0 xs1)]
  unfold kernelRun0_B
  dsimp only
  sl_unfold_words
  rw [View.canon_unit_zero hz2]
  unfold N7 N8 iota3
  simp only [View.readAt_eq_ld, harg1.read_unread, harg3.read_unread, harg4.read_unread,
    View.ld_unit_zero (S := S1x1) hz2, View.ld_unit_zero (S := S64x1) hz2,
    ld_slab x0 0 ![0, 0, 0] rfl, ld_slab x0 1 ![0, 1, 0] rfl, ld_slab x0 2 ![0, 2, 0] rfl, ld_slab x0 3 ![0, 3, 0] rfl,
    ld_slab x0 4 ![0, 4, 0] rfl, ld_slab x0 5 ![0, 5, 0] rfl, ld_slab x0 6 ![0, 6, 0] rfl, ld_slab x0 7 ![0, 7, 0] rfl]

/-- Middle points, in-class accumulator. -/
theorem sB1 (c : Dev nD) (i : grid0.Coords) (arg1 : Memref sig .tc .vmem S64x8x128 .i32) (harg1 : arg1.IsWhole) (arg2 : Memref sig .tc .vmem S1x1 .f32) (harg2 : arg2.IsWhole) (arg3 : Memref sig .tc .vmem S1x1 .f32) (harg3 : arg3.IsWhole) (arg4 : Memref sig .tc .vmem S64x1 .f32) (harg4 : arg4.IsWhole) (hc0 : ¬cond0_0 i) (hc1 : ¬cond0_1 i) (x0 : Vec F S64x8x128 .i32) (xs0 : Vec F S1x1 .f32) (xs1 : Vec F S64x1 .f32) :
    sout0_B_1 c i arg1 harg1 arg2 harg2 arg3 harg3 arg4 harg4 hc0 hc1 x0 xs0 xs1 = k0_pay1 (k0_pay11 (N7 (slabs x0)) (N8 (F := F) (slabs x0)) xs1) := by
  unfold sout0_B_1
  rw [View.read_writes_eq_canon _ _ _ (scover0_B_1 c i arg1 harg1 arg2 harg2 arg3 harg3 arg4 harg4 hc0 hc1 x0 xs0 xs1)]
  unfold kernelRun0_B
  dsimp only
  sl_unfold_words
  rw [View.canon_unit_zero hz2]
  unfold N7 N8 iota3
  simp only [View.readAt_eq_ld, harg1.read_unread, harg3.read_unread, harg4.read_unread,
    View.ld_unit_zero (S := S1x1) hz2, View.ld_unit_zero (S := S64x1) hz2,
    ld_slab x0 0 ![0, 0, 0] rfl, ld_slab x0 1 ![0, 1, 0] rfl, ld_slab x0 2 ![0, 2, 0] rfl, ld_slab x0 3 ![0, 3, 0] rfl,
    ld_slab x0 4 ![0, 4, 0] rfl, ld_slab x0 5 ![0, 5, 0] rfl, ld_slab x0 6 ![0, 6, 0] rfl, ld_slab x0 7 ![0, 7, 0] rfl]

/-- Last point, inter-class accumulator. -/
theorem sC0 (c : Dev nD) (i : grid0.Coords) (arg1 : Memref sig .tc .vmem S64x8x128 .i32) (harg1 : arg1.IsWhole) (arg2 : Memref sig .tc .vmem S1x1 .f32) (harg2 : arg2.IsWhole) (arg3 : Memref sig .tc .vmem S1x1 .f32) (harg3 : arg3.IsWhole) (arg4 : Memref sig .tc .vmem S64x1 .f32) (harg4 : arg4.IsWhole) (hc0 : ¬cond0_0 i) (hc1 : cond0_1 i) (x0 : Vec F S64x8x128 .i32) (xs0 : Vec F S1x1 .f32) (xs1 : Vec F S64x1 .f32) :
    sout0_C_0 c i arg1 harg1 arg2 harg2 arg3 harg3 arg4 harg4 hc0 hc1 x0 xs0 xs1 = k0_pay10 (N7 (slabs x0)) (N8 (F := F) (slabs x0)) xs0 := by
  unfold sout0_C_0
  rw [View.read_writes_eq_canon _ _ _ (scover0_C_0 c i arg1 harg1 arg2 harg2 arg3 harg3 arg4 harg4 hc0 hc1 x0 xs0 xs1)]
  unfold kernelRun0_C
  dsimp only
  sl_unfold_words
  rw [View.canon_unit_zero hz2]
  unfold N7 N8 iota3
  simp only [View.readAt_eq_ld, harg1.read_unread, harg3.read_unread, harg4.read_unread,
    View.ld_unit_zero (S := S1x1) hz2, View.ld_unit_zero (S := S64x1) hz2,
    ld_slab x0 0 ![0, 0, 0] rfl, ld_slab x0 1 ![0, 1, 0] rfl, ld_slab x0 2 ![0, 2, 0] rfl, ld_slab x0 3 ![0, 3, 0] rfl,
    ld_slab x0 4 ![0, 4, 0] rfl, ld_slab x0 5 ![0, 5, 0] rfl, ld_slab x0 6 ![0, 6, 0] rfl, ld_slab x0 7 ![0, 7, 0] rfl]

/-- Last point, in-class accumulator. -/
theorem sC1 (c : Dev nD) (i : grid0.Coords) (arg1 : Memref sig .tc .vmem S64x8x128 .i32) (harg1 : arg1.IsWhole) (arg2 : Memref sig .tc .vmem S1x1 .f32) (harg2 : arg2.IsWhole) (arg3 : Memref sig .tc .vmem S1x1 .f32) (harg3 : arg3.IsWhole) (arg4 : Memref sig .tc .vmem S64x1 .f32) (harg4 : arg4.IsWhole) (hc0 : ¬cond0_0 i) (hc1 : cond0_1 i) (x0 : Vec F S64x8x128 .i32) (xs0 : Vec F S1x1 .f32) (xs1 : Vec F S64x1 .f32) :
    sout0_C_1 c i arg1 harg1 arg2 harg2 arg3 harg3 arg4 harg4 hc0 hc1 x0 xs0 xs1 = k0_pay1 (k0_pay11 (N7 (slabs x0)) (N8 (F := F) (slabs x0)) xs1) := by
  unfold sout0_C_1
  rw [View.read_writes_eq_canon _ _ _ (scover0_C_1 c i arg1 harg1 arg2 harg2 arg3 harg3 arg4 harg4 hc0 hc1 x0 xs0 xs1)]
  unfold kernelRun0_C
  dsimp only
  sl_unfold_words
  rw [View.canon_unit_zero hz2]
  unfold N7 N8 iota3
  simp only [View.readAt_eq_ld, harg1.read_unread, harg3.read_unread, harg4.read_unread,
    View.ld_unit_zero (S := S1x1) hz2, View.ld_unit_zero (S := S64x1) hz2,
    ld_slab x0 0 ![0, 0, 0] rfl, ld_slab x0 1 ![0, 1, 0] rfl, ld_slab x0 2 ![0, 2, 0] rfl, ld_slab x0 3 ![0, 3, 0] rfl,
    ld_slab x0 4 ![0, 4, 0] rfl, ld_slab x0 5 ![0, 5, 0] rfl, ld_slab x0 6 ![0, 6, 0] rfl, ld_slab x0 7 ![0, 7, 0] rfl]

/-- Last point, the output block: the closing expression of the two accumulators just updated. -/
theorem oC (c : Dev nD) (i : grid0.Coords) (arg1 : Memref sig .tc .vmem S64x8x128 .i32) (harg1 : arg1.IsWhole) (arg2 : Memref sig .tc .vmem S1x1 .f32) (harg2 : arg2.IsWhole) (arg3 : Memref sig .tc .vmem S1x1 .f32) (harg3 : arg3.IsWhole) (arg4 : Memref sig .tc .vmem S64x1 .f32) (harg4 : arg4.IsWhole) (hc0 : ¬cond0_0 i) (hc1 : cond0_1 i) (x0 : Vec F S64x8x128 .i32) (xs0 : Vec F S1x1 .f32) (xs1 : Vec F S64x1 .f32) :
    out0_C_1 c i arg1 harg1 arg2 harg2 arg3 harg3 arg4 harg4 hc0 hc1 x0 xs0 xs1
      = k0_pay2 (k0_pay10 (N7 (slabs x0)) (N8 (F := F) (slabs x0)) xs0) (k0_pay1 (k0_pay11 (N7 (slabs x0)) (N8 (F := F) (slabs x0)) xs1)) := by
  unfold out0_C_1
  rw [View.read_writes_eq_canon _ _ _ (cover0_C_1 c i arg1 harg1 arg2 harg2 arg3 harg3 arg4 harg4 hc0 hc1 x0 xs0 xs1)]
  unfold kernelRun0_C
  dsimp only
  sl_unfold_words
  rw [View.canon_unit_zero hz2, View.readCov_unit_zero (S := S1x1) _ hz2, View.readCov_unit_zero (S := S64x1) _ hz2]
  unfold N7 N8 iota3
  simp only [View.readAt_eq_ld, harg1.read_unread, harg3.read_unread, harg4.read_unread,
    View.ld_unit_zero (S := S1x1) hz2, View.ld_unit_zero (S := S64x1) hz2,
    ld_slab x0 0 ![0, 0, 0] rfl, ld_slab x0 1 ![0, 1, 0] rfl, ld_slab x0 2 ![0, 2, 0] rfl, ld_slab x0 3 ![0, 3, 0] rfl,
    ld_slab x0 4 ![0, 4, 0] rfl, ld_slab x0 5 ![0, 5, 0] rfl, ld_slab x0 6 ![0, 6, 0] rfl, ld_slab x0 7 ![0, 7, 0] rfl]

end Cert.KernelIdeal.KerPieces

end
-- ==== Proof.KerValue.lean ====
/-
  The kernel's run read as a value: the accumulators after grid point n hold the sums of the first n + 1 tiles'
  shares (induction on the point), the last point's block is the closing expression of the full sums, and that block
  is the whole 1 × 1 result array.
-/
import proofs.«112873_j75222057222180_1_alg».proof.Proof.Gen.KernelIdeal.Frame
import proofs.«112873_j75222057222180_1_alg».proof.Proof.KerPay
import proofs.«112873_j75222057222180_1_alg».proof.Proof.KerPieces
import Idealize.ShloMosaic.Lib.Pipeline.Value
import Idealize.ShloMosaic.Lib.StableHlo.Run
import Idealize.ShloMosaic.Lib.Tactic

noncomputable section

namespace Cert.KernelIdeal.KerValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KerPay Cert.KernelIdeal.KerPieces Cert.Spec

section Points

variable (m : (ℓ : Loc nD τ sig) → Buf (Elt Ideal) ℓ)

/-- The label array as the region finds it, at its literal type. -/
abbrev xarr (c : Dev nD) : Vec Ideal S64x8x1024 .i32 := V m c main_arg0

/-- The tile of labels the window reads at grid point `t`, at its literal type. -/
abbrev xblk (c : Dev nD) (t : Fin cfg0.N) : Vec Ideal S64x8x128 .i32 := iblk m c 0 t

/-- The one-hot table of a tile cut into its shot slabs is the tile's own table. -/
theorem ohL_slabs (x0 : Vec Ideal S64x8x128 .i32) : ohL (slabs x0) = ohB x0 := by
  funext c s w k
  rfl

/-- The window's block index at point `t`: tile `t` along the position axis, the whole of the other two. -/
theorem index0 : ∀ t : Fin cfg0.N, win0_0.index t 2 = t.val ∧ win0_0.index t 0 = 0 ∧ win0_0.index t 1 = 0 :=
  (by decide +kernel : ∀ t : Fin grid0.N, win0_0.index t (2 : Fin 3) = t.val ∧ win0_0.index t 0 = 0 ∧ win0_0.index t 1 = 0)

/-- THE BLOCK READ: the tile at point `t`, at (class-set, shot, position `w`), is the array at position `128 t + w`. -/
theorem xblk_apply (c : Dev nD) (t : Fin cfg0.N) (c' : Fin 64) (s : Fin 8) (w : Fin 128) (hw : 128 * t.val + w.val < 1024) :
    xblk m c t (ix3 c' s w) = xarr m c (ix3 c' s ⟨128 * t.val + w.val, hw⟩) := by
  obtain ⟨h2, h0, h1⟩ := index0 t
  unfold xblk iblk
  rw [View.read_apply]
  show V m c main_arg0 _ = V m c main_arg0 _
  congr 1
  funext a
  apply Fin.ext
  match a with
  | ⟨0, _⟩ => show win0_0.index t 0 * 64 + 1 * c'.val = c'.val; rw [h0]; omega
  | ⟨1, _⟩ => show win0_0.index t 1 * 8 + 1 * s.val = s.val; rw [h1]; omega
  | ⟨2, _⟩ => show win0_0.index t 2 * 128 + 1 * w.val = 128 * t.val + w.val; rw [h2]; omega

/-- So the tile's one-hot table is tile `t` of the whole array's. -/
theorem ohB_xblk (c : Dev nD) (t : Fin cfg0.N) (ht : t.val < 8) :
    ohB (xblk m c t) = tile (oh (xarr m c)) ⟨t.val, ht⟩ := by
  funext c' s w k
  show hot (xblk m c t (ix3 c' s w)) k = hot (xarr m c (ix3 c' s ⟨128 * t.val + w.val, _⟩)) k
  rw [xblk_apply m c t c' s w]

/-! ## What each point leaves, over what the point before left -/

/-- What the point before `t` left in the inter-class accumulator. -/
abbrev prevP (c : Dev nD) (t : Fin cfg0.N) : Vec Ideal S1x1 .f32 :=
  (outsAt0 m c (t.val - 1) (Nat.lt_of_le_of_lt (Nat.sub_le _ _) t.isLt)).2.1

/-- What the point before `t` left in the in-class accumulator. -/
abbrev prevQ (c : Dev nD) (t : Fin cfg0.N) : Vec Ideal S64x1 .f32 :=
  (outsAt0 m c (t.val - 1) (Nat.lt_of_le_of_lt (Nat.sub_le _ _) t.isLt)).2.2

/-- After any point but the first the inter-class accumulator is the update payload of what the point before left. -/
theorem accP_eq (c : Dev nD) (t : Fin cfg0.N) (h0 : ¬t.val % 8 = 0) :
    (outsAt0 m c t.val t.isLt).2.1
      = k0_pay10 (N7 (F := Ideal) (slabs (xblk m c t))) (N8 (F := Ideal) (slabs (xblk m c t))) (prevP m c t) := by
  by_cases h1 : t.val % 8 = 7
  · rw [outsAt0_C m c t h0 h1]
    dsimp only
    exact sC0 (F := Ideal) c (grid0.coords t) (ms0_0 t) (hs0_0 t) (ms0_1 t) (hs0_1 t) scM0_0 (Memref.isWhole_whole _)
      scM0_1 (Memref.isWhole_whole _) (fun h => h0 ((hcond0_0 t).mp h)) ((hcond0_1 t).mpr h1) (xblk m c t)
      (prevP m c t) (prevQ m c t)
  · rw [outsAt0_B m c t h0 h1]
    dsimp only
    exact sB0 (F := Ideal) c (grid0.coords t) (ms0_0 t) (hs0_0 t) (ms0_1 t) (hs0_1 t) scM0_0 (Memref.isWhole_whole _)
      scM0_1 (Memref.isWhole_whole _) (fun h => h0 ((hcond0_0 t).mp h)) (fun h => h1 ((hcond0_1 t).mp h)) (xblk m c t)
      (prevP m c t) (prevQ m c t)

/-- The same for the in-class accumulator. -/
theorem accQ_eq (c : Dev nD) (t : Fin cfg0.N) (h0 : ¬t.val % 8 = 0) :
    (outsAt0 m c t.val t.isLt).2.2
      = k0_pay1 (k0_pay11 (N7 (F := Ideal) (slabs (xblk m c t))) (N8 (F := Ideal) (slabs (xblk m c t))) (prevQ m c t)) := by
  by_cases h1 : t.val % 8 = 7
  · rw [outsAt0_C m c t h0 h1]
    dsimp only
    exact sC1 (F := Ideal) c (grid0.coords t) (ms0_0 t) (hs0_0 t) (ms0_1 t) (hs0_1 t) scM0_0 (Memref.isWhole_whole _)
      scM0_1 (Memref.isWhole_whole _) (fun h => h0 ((hcond0_0 t).mp h)) ((hcond0_1 t).mpr h1) (xblk m c t)
      (prevP m c t) (prevQ m c t)
  · rw [outsAt0_B m c t h0 h1]
    dsimp only
    exact sB1 (F := Ideal) c (grid0.coords t) (ms0_0 t) (hs0_0 t) (ms0_1 t) (hs0_1 t) scM0_0 (Memref.isWhole_whole _)
      scM0_1 (Memref.isWhole_whole _) (fun h => h0 ((hcond0_0 t).mp h)) (fun h => h1 ((hcond0_1 t).mp h)) (xblk m c t)
      (prevP m c t) (prevQ m c t)

/-- At the last point the output block is the closing expression of the two accumulators as that point leaves them. -/
theorem out_eq (c : Dev nD) (t : Fin cfg0.N) (h0 : ¬t.val % 8 = 0) (h1 : t.val % 8 = 7) :
    (outsAt0 m c t.val t.isLt).1
      = k0_pay2 (outsAt0 m c t.val t.isLt).2.1 (outsAt0 m c t.val t.isLt).2.2 := by
  rw [accP_eq m c t h0, accQ_eq m c t h0, outsAt0_C m c t h0 h1]
  dsimp only
  exact oC (F := Ideal) c (grid0.coords t) (ms0_0 t) (hs0_0 t) (ms0_1 t) (hs0_1 t) scM0_0 (Memref.isWhole_whole _)
    scM0_1 (Memref.isWhole_whole _) (fun h => h0 ((hcond0_0 t).mp h)) ((hcond0_1 t).mpr h1) (xblk m c t)
    (prevP m c t) (prevQ m c t)

/-- The inter-class accumulator grows by the tile's share. -/
theorem stepP (c : Dev nD) (t : Fin cfg0.N) (h0 : ¬t.val % 8 = 0) (j : S1x1.Idx) :
    (outsAt0 m c t.val t.isLt).2.1 j = prevP m c t j + tileP (ohB (xblk m c t)) := by
  rw [accP_eq m c t h0]
  refine (pay10_eq (slabs (xblk m c t)) (prevP m c t) j).trans ?_
  rw [ohL_slabs]

/-- The in-class accumulator grows, per class-set, by the tile's share. -/
theorem stepQ (c : Dev nD) (t : Fin cfg0.N) (h0 : ¬t.val % 8 = 0) (c' : Fin 64) (z : Fin 1) :
    (outsAt0 m c t.val t.isLt).2.2 (ix2 c' z) = prevQ m c t (ix2 c' z) + tileQ (ohB (xblk m c t)) c' := by
  rw [accQ_eq m c t h0, pay1_eq]
  refine (pay11_eq (slabs (xblk m c t)) (prevQ m c t) c' z).trans ?_
  rw [ohL_slabs]

/-- The first point: the zero just stored plus the first tile's share. -/
theorem baseP (c : Dev nD) (h : 0 < cfg0.N) (j : S1x1.Idx) :
    (outsAt0 m c 0 h).2.1 j = tileP (ohB (xblk m c ⟨0, h⟩)) := by
  rw [outsAt0_A m c ⟨0, h⟩ rfl (by show ¬(0 % 8 = 7); decide)]
  dsimp only
  refine (congrFun (sA0 (F := Ideal) c (grid0.coords ⟨0, h⟩) (ms0_0 ⟨0, h⟩) (hs0_0 ⟨0, h⟩) (ms0_1 ⟨0, h⟩) (hs0_1 ⟨0, h⟩)
    scM0_0 (Memref.isWhole_whole _) scM0_1 (Memref.isWhole_whole _) ((hcond0_0 ⟨0, h⟩).mpr rfl)
    (fun h' => (by decide : ¬(0 % 8 = 7)) ((hcond0_1 ⟨0, h⟩).mp h')) (xblk m c ⟨0, h⟩)) j).trans ?_
  refine (pay10_eq (slabs (xblk m c ⟨0, h⟩)) (k0_pay3 (F := Ideal)) j).trans ?_
  rw [pay3_eq, ohL_slabs]
  exact zero_add _

theorem baseQ (c : Dev nD) (h : 0 < cfg0.N) (c' : Fin 64) (z : Fin 1) :
    (outsAt0 m c 0 h).2.2 (ix2 c' z) = tileQ (ohB (xblk m c ⟨0, h⟩)) c' := by
  rw [outsAt0_A m c ⟨0, h⟩ rfl (by show ¬(0 % 8 = 7); decide)]
  dsimp only
  refine (congrFun (sA1 (F := Ideal) c (grid0.coords ⟨0, h⟩) (ms0_0 ⟨0, h⟩) (hs0_0 ⟨0, h⟩) (ms0_1 ⟨0, h⟩) (hs0_1 ⟨0, h⟩)
    scM0_0 (Memref.isWhole_whole _) scM0_1 (Memref.isWhole_whole _) ((hcond0_0 ⟨0, h⟩).mpr rfl)
    (fun h' => (by decide : ¬(0 % 8 = 7)) ((hcond0_1 ⟨0, h⟩).mp h')) (xblk m c ⟨0, h⟩)) (ix2 c' z)).trans ?_
  rw [pay1_eq]
  refine (pay11_eq (slabs (xblk m c ⟨0, h⟩)) (k0_pay4 (F := Ideal)) c' z).trans ?_
  rw [pay4_eq, ohL_slabs]
  exact zero_add _

/-! ## The invariant: after point n the accumulators hold the shares of tiles 0 … n -/

/-- Tile `i`'s share of the inter-class sum (nothing past the last tile). -/
def tP (o : OH) (i : ℕ) : EReal := if h : i < 8 then tileP (tile o ⟨i, h⟩) else 0

/-- Tile `i`'s share of class-set `c'`'s in-class sum (nothing past the last tile). -/
def tQ (o : OH) (c' : Fin 64) (i : ℕ) : EReal := if h : i < 8 then tileQ (tile o ⟨i, h⟩) c' else 0

theorem tP_of_lt (o : OH) (i : ℕ) (h : i < 8) : tP o i = tileP (tile o ⟨i, h⟩) := dif_pos h

theorem tQ_of_lt (o : OH) (c' : Fin 64) (i : ℕ) (h : i < 8) : tQ o c' i = tileQ (tile o ⟨i, h⟩) c' := dif_pos h

/-- The shares of all eight tiles, summed over the range, are the sum over the tiles. -/
theorem sum_tP (o : OH) : ∑ i ∈ Finset.range 8, tP o i = ∑ t : Fin 8, tileP (tile o t) := by
  rw [← Fin.sum_univ_eq_sum_range (fun i => tP o i) 8]
  exact Finset.sum_congr rfl fun t _ => tP_of_lt o t.val t.isLt

theorem sum_tQ (o : OH) (c' : Fin 64) : ∑ i ∈ Finset.range 8, tQ o c' i = ∑ t : Fin 8, tileQ (tile o t) c' := by
  rw [← Fin.sum_univ_eq_sum_range (fun i => tQ o c' i) 8]
  exact Finset.sum_congr rfl fun t _ => tQ_of_lt o c' t.val t.isLt

/-- THE INVARIANT, by induction on the point: after point `n` each accumulator holds the sum of the shares of the
    tiles up to `n`. -/
theorem inv (c : Dev nD) : ∀ (n : ℕ) (hn : n < cfg0.N),
    (∀ j : S1x1.Idx, (outsAt0 m c n hn).2.1 j = ∑ i ∈ Finset.range (n + 1), tP (oh (xarr m c)) i)
    ∧ (∀ (c' : Fin 64) (z : Fin 1), (outsAt0 m c n hn).2.2 (ix2 c' z) = ∑ i ∈ Finset.range (n + 1), tQ (oh (xarr m c)) c' i)
  | 0, hn => by
    refine ⟨fun j => ?_, fun c' z => ?_⟩
    · rw [baseP m c hn j, Finset.sum_range_one, tP_of_lt _ 0 (by norm_num), ohB_xblk m c ⟨0, hn⟩ (by norm_num)]
    · rw [baseQ m c hn c' z, Finset.sum_range_one, tQ_of_lt _ c' 0 (by norm_num), ohB_xblk m c ⟨0, hn⟩ (by norm_num)]
  | n + 1, hn => by
    have hN : cfg0.N = 8 := N_0
    have h8 : n + 1 < 8 := lt_of_lt_of_eq hn hN
    have h0 : ¬(⟨n + 1, hn⟩ : Fin cfg0.N).val % 8 = 0 := by dsimp only; omega
    obtain ⟨ihP, ihQ⟩ := inv c n (Nat.lt_of_succ_lt hn)
    refine ⟨fun j => ?_, fun c' z => ?_⟩
    · refine (stepP m c ⟨n + 1, hn⟩ h0 j).trans ?_
      show (outsAt0 m c n (Nat.lt_of_succ_lt hn)).2.1 j + tileP (ohB (xblk m c ⟨n + 1, hn⟩)) = _
      rw [ihP j, Finset.sum_range_succ _ (n + 1), tP_of_lt _ (n + 1) h8, ohB_xblk m c ⟨n + 1, hn⟩ h8]
    · refine (stepQ m c ⟨n + 1, hn⟩ h0 c' z).trans ?_
      show (outsAt0 m c n (Nat.lt_of_succ_lt hn)).2.2 (ix2 c' z) + tileQ (ohB (xblk m c ⟨n + 1, hn⟩)) c' = _
      rw [ihQ c' z, Finset.sum_range_succ _ (n + 1), tQ_of_lt _ c' (n + 1) h8, ohB_xblk m c ⟨n + 1, hn⟩ h8]

/-! ## The last point's block, and the result array -/

/-- At the last point the output block holds `Kres` of the array's one-hot table. -/
theorem last_val (c : Dev nD) (t : Fin cfg0.N) (h7 : t.val = 7) (j : S1x1.Idx) :
    (outsAt0 m c t.val t.isLt).1 j = Kres (oh (xarr m c)) := by
  obtain ⟨ihP, ihQ⟩ := inv m c t.val t.isLt
  rw [out_eq m c t (by omega) (by omega)]
  refine (pay2_eq _ _ j).trans ?_
  rw [ihP j, Finset.sum_congr rfl fun c' _ => ihQ c' 0]
  simp only [h7]
  unfold Kres
  rw [sum_tP, Finset.sum_congr rfl fun c' _ => sum_tQ (oh (xarr m c)) c']

/-- The one write-back, at the last point, writes the constant block `Kres`. -/
theorem flushed_eq (c : Dev nD) (t : Fin cfg0.N) (hf : (cfg0.win 1).flush t = true) :
    (dats m 0 c).flushed 1 t
      = ((cfg0.win 1).blk t).view.read (Elt Ideal)
          (fun _ => Kres (oh (xarr m c)) : Buf (Elt Ideal) ((c.tc : Thread nD τ).loc main_v0)) := by
  have hN : cfg0.N = 8 := N_0
  have h7 : t.val = 7 := by have := (flush0_1 t).mp hf; have := t.isLt; omega
  funext x
  rw [View.read_apply]
  show (dats m 0 c).after 1 t _ = Kres (oh (xarr m c))
  rw [after0_1]
  exact last_val m c t h7 _

end Points

/-- The result array after the whole grid: `Kres` of the label array's one-hot table. The one write-back's block,
    at offset 0 with extent 1 on both axes, is the whole 1 × 1 array. -/
theorem final_o (m : (ℓ : Loc nD τ sig) → Buf (Elt Ideal) ℓ) (c : Dev nD) :
    (dats m 0 c).arrAt 1 cfg0.N = fun _ => Kres (oh (V m c main_arg0)) := by
  refine (dats m 0 c).arrAt_eq_of_cover 1 _ (flushed_eq m c) fun i => ⟨t0_7, (flush0_1 t0_7).mpr rfl, ?_⟩
  show i ∈ ((View.whole main_v0).slice (win0_1.rect t0_7)).set
  rw [View.set_slice_whole, Rect.mem_set_unit]
  intro a
  have hoff : ∀ a : Fin 2, win0_1.index t0_7 a * win0_1.size a = 0 := by decide +kernel
  have hext : ∀ a : Fin 2, win0_1.xsize (grid0.coords t0_7) a = 1 := by decide +kernel
  have hsz : ∀ a : Fin 2, S1x1.size a = 1 := by decide
  have hlt : (i a).val < S1x1.size a := (i a).isLt
  rw [hsz a] at hlt
  rw [hoff a, hext a]
  omega

end Cert.KernelIdeal.KerValue

end
-- ==== Proof.KerTail.lean ====
/-
  After the region the program reshapes the 1 × 1 result array to a scalar: the scalar result is the array's one
  entry, so the run ends with `Kres` of the label array's one-hot table, the labels unchanged.
-/
import proofs.«112873_j75222057222180_1_alg».proof.Proof.Gen.KernelIdeal.Frame
import proofs.«112873_j75222057222180_1_alg».proof.Proof.Spec
import Idealize.ShloMosaic.Lib.Pipeline.Value
import Idealize.ShloMosaic.Lib.StableHlo.Run
import Idealize.ShloMosaic.Lib.Tactic

noncomputable section

namespace Cert.KernelIdeal.KerTail

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (m : (ℓ : Loc nD τ sig) → Buf (Elt Ideal) ℓ) (ρ : Dev nD → PrngReg)

/-- The scalar result buffer is no array of the pipeline. -/
theorem v1_rest : main_v1 ∈ Pipeline.restRefs sig (cfgs 0).spec :=
  Pipeline.mem_restRefs_of main_v1 rfl (fun w => by fin_cases w <;> decide)

/-- What the reshape after the region leaves in the scalar result: the result array's entry. -/
theorem tail_eq (c : Dev nD) (G : EReal)
    (hfinal : (dats m 0 c).arrAt 1 cfg0.N = fun _ => G) :
    Pipeline.afterTail₀ cfgs (dats m) 0 (V0 m) [hostOps1] c main_v1 = fun _ => G := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0)
      = fun _ => G :=
    (Pipeline.withArrays_arr spec0 launch0.win.arr_inj c _ _ 1).trans hfinal
  funext i
  show shapeCast S_ (Pipeline.withArrays (cfgs 0).spec c (V0 m c) (fun w => (dats m 0 c).arrAt w (cfgs 0).N) (Proc.tc.devRef main_v0))
    shapeCasts_S1x1_S_ i = G
  rw [e]
  rfl

/-- The run: the scalar result at `Kres` of the one-hot table of the labels, the labels unchanged. -/
theorem run_of (hfinal : ∀ c : Dev nD, (dats m 0 c).arrAt 1 cfg0.N = fun _ => Kres (oh (V m c main_arg0))) :
    θ_run (defs (F := Ideal)) (onTc (τ := τ) (main (F := Ideal))) ⟨m, fun _ => 0, ρ⟩ fun r => ∀ c : Dev nD,
      r.2.mem ((c.tc : Thread nD τ).loc main_v1) = (fun _ => Kres (oh (m ((c.tc : Thread nD τ).loc main_arg0))))
      ∧ r.2.mem ((c.tc : Thread nD τ).loc main_arg0) = m ((c.tc : Thread nD τ).loc main_arg0) :=
  (θ_run defs _ _).mono (fun _ h c =>
    ⟨((h c).2 main_v1 v1_rest).trans (tail_eq m c _ (hfinal c)),
     ((h c).1 0).trans (((dats m 0 c).arrAt_in 0 rfl _).trans ((A_eq m c 0).trans (V_main_arg0 m c)))⟩)
    (run_main m ρ)

end Cert.KernelIdeal.KerTail

end
-- ==== Proof.RefTerm.lean ====
/-
  The reference's result as ONE pure term of the label array: the host operations of its @main composed in order,
  the outlined functions' bodies in place of their calls.  Stage by stage:
  `oneHot` (labels minus one compared with an iota over 128 classes, as floats), `ohMean` (its mean over the 8 shots,
  flattened to 64 × 131072), `var0` / `var1` (jnp.var with one degree of freedom removed, over the 64 class-sets and
  over the 8 shots: mean, centred squares, their sum over the divisor N − 1, guarded by N − 1 > 0), the square roots,
  the sums, and the final `1 / Σ + (Σ Σ) / 64`.
-/
import proofs.«112873_j75222057222180_1_alg».proof.ReferenceIdeal
import proofs.«112873_j75222057222180_1_alg».proof.Proof.Gen.ReferenceIdeal

noncomputable section

namespace Cert.ReferenceIdeal.RefTerm

open Cert.ReferenceIdeal Cert.ReferenceIdeal.Gen Idealize.ShloMosaic

variable {F : FTy → Type} [FloatOps F]

/-- The labels minus one, compared with the class index, as 0/1 floats: shape 64 × 8 × 1024 × 128. -/
def oneHot (x : IVec S64x8x1024 32) : FVec F S64x8x1024x128 .f32 :=
  uitofp .f32 (cmpi .eq
    (broadcastInDim S64x8x1024x128 ![0, 1, 2, 3] bcast_S64x8x1024x1_S64x8x1024x128_0_1_2_3
      (broadcastInDim S64x8x1024x1 ![0, 1, 2] bcast_S64x8x1024_S64x8x1024x1_0_1_2
        (subi x (broadcastInDim S64x8x1024 ![] bcast_S_S64x8x1024 (constantI S_ 32 1#32)))))
    (broadcastInDim S64x8x1024x128 ![0, 1, 2, 3] bcast_S1x1x1x128_S64x8x1024x128_0_1_2_3 (iotaInDim S1x1x1x128 32 3)))

/-- The mean over the 8 shots, flattened over (position, class). -/
def ohMean (o : FVec F S64x8x1024x128 .f32) : FVec F S64x131072 .f32 :=
  shapeCast S64x131072
    (Host.divf (Host.reduceAdd o (constant S_ .f32 0x00000000#32) reducesTo_S64x8x1024x128_S64x1024x128_d1 h_S_)
      (broadcastInDim S64x1024x128 ![] bcast_S_S64x1024x128 (constant S_ .f32 0x41000000#32)))
    shapeCasts_S64x1024x128_S64x131072

/-- 64 − 1 as the program computes it. -/
def dof0 : FVec F S_ .f32 := subf (constant S_ .f32 0x42800000#32) (sitofp .f32 (constantI S_ 32 1#32))
/-- 8 − 1 as the program computes it. -/
def dof1 : FVec F S_ .f32 := subf (constant S_ .f32 0x41000000#32) (sitofp .f32 (constantI S_ 32 1#32))

/-- The centred values over the 64 class-sets. -/
def cen0 (a : FVec F S64x131072 .f32) : FVec F S64x131072 .f32 :=
  subf a (broadcastInDim S64x131072 ![0, 1] bcast_S1x131072_S64x131072_0_1
    (Host.divf (broadcastInDim S1x131072 ![1] bcast_S131072_S1x131072_1
        (Host.reduceAdd a (constant S_ .f32 0x00000000#32) reducesTo_S64x131072_S131072_d0 h_S_))
      (broadcastInDim S1x131072 ![] bcast_S_S1x131072 (constant S_ .f32 0x42800000#32))))

/-- jnp.var over the class-sets, ddof = 1. -/
def var0 (a : FVec F S64x131072 .f32) : FVec F S131072 .f32 :=
  select (broadcastInDim S131072 ![] bcast_S_S131072 (cmpf .ogt (dof0 (F := F)) (constant S_ .f32 0x00000000#32)))
    (Host.divf (Host.reduceAdd (mulf (cen0 a) (cen0 a)) (constant S_ .f32 0x00000000#32) reducesTo_S64x131072_S131072_d0 h_S_)
      (broadcastInDim S131072 ![] bcast_S_S131072 (dof0 (F := F))))
    (broadcastInDim S131072 ![] bcast_S_S131072 (id (constant S_ .f32 0x7FC00000#32)))

/-- The inter-class term: one over the sum of the deviations. -/
def inter (o : FVec F S64x8x1024x128 .f32) : FVec F S_ .f32 :=
  Host.divf (constant S_ .f32 0x3F800000#32)
    (Host.reduceAdd (Host.sqrt (var0 (ohMean o))) (constant S_ .f32 0x00000000#32) reducesTo_S131072_S_d0 h_S_)

/-- The centred values over the 8 shots. -/
def cen1 (b : FVec F S64x8x131072 .f32) : FVec F S64x8x131072 .f32 :=
  subf b (broadcastInDim S64x8x131072 ![0, 1, 2] bcast_S64x1x131072_S64x8x131072_0_1_2
    (Host.divf (broadcastInDim S64x1x131072 ![0, 2] bcast_S64x131072_S64x1x131072_0_2
        (Host.reduceAdd b (constant S_ .f32 0x00000000#32) reducesTo_S64x8x131072_S64x131072_d1 h_S_))
      (broadcastInDim S64x1x131072 ![] bcast_S_S64x1x131072 (constant S_ .f32 0x41000000#32))))

/-- jnp.var over the shots, ddof = 1. -/
def var1 (b : FVec F S64x8x131072 .f32) : FVec F S64x131072 .f32 :=
  select (broadcastInDim S64x131072 ![] bcast_S_S64x131072 (cmpf .ogt (dof1 (F := F)) (constant S_ .f32 0x00000000#32)))
    (Host.divf (Host.reduceAdd (mulf (cen1 b) (cen1 b)) (constant S_ .f32 0x00000000#32) reducesTo_S64x8x131072_S64x131072_d1 h_S_)
      (broadcastInDim S64x131072 ![] bcast_S_S64x131072 (dof1 (F := F))))
    (broadcastInDim S64x131072 ![] bcast_S_S64x131072 (id (constant S_ .f32 0x7FC00000#32)))

/-- The in-class term: the mean over the class-sets of the summed deviations. -/
def inClass (o : FVec F S64x8x1024x128 .f32) : FVec F S_ .f32 :=
  Host.divf
    (Host.reduceAdd
      (Host.reduceAdd (Host.sqrt (var1 (shapeCast S64x8x131072 o shapeCasts_S64x8x1024x128_S64x8x131072)))
        (constant S_ .f32 0x00000000#32) reducesTo_S64x131072_S64_d1 h_S_)
      (constant S_ .f32 0x00000000#32) reducesTo_S64_S_d0 h_S_)
    (constant S_ .f32 0x42800000#32)

/-- The reference's result. -/
def refTerm (x : IVec S64x8x1024 32) : FVec F S_ .f32 :=
  addf (inter (oneHot (F := F) x)) (inClass (oneHot (F := F) x))

end Cert.ReferenceIdeal.RefTerm

end
-- ==== Proof.RefRun.lean ====
/-
  The reference's @main as the list of its host operations, the outlined functions' bodies in place of their calls,
  and its run: every execution ends with the result buffer at `refTerm` of the label array, the labels unchanged.
-/
import proofs.«112873_j75222057222180_1_alg».proof.ReferenceIdeal
import proofs.«112873_j75222057222180_1_alg».proof.Proof.Gen.ReferenceIdeal
import proofs.«112873_j75222057222180_1_alg».proof.Proof.RefTerm
import Idealize.ShloMosaic.Lib.StableHlo.Run

noncomputable section

namespace Cert.ReferenceIdeal.RefRun

open Cert.ReferenceIdeal Cert.ReferenceIdeal.Gen Cert.ReferenceIdeal.RefTerm
open Idealize.ShloMosaic Idealize.ShloMosaic.TcCoe Idealize.SL.Sem Idealize.ShloMosaic.StableHlo

variable {F : FTy → Type} [FloatOps F]

/-- @main's 75 operations in order, each call replaced by its callee's operations over that call's buffers:
    the labels minus one (3), the one-hot comparison (6), its mean over the shots flattened (6), the degrees-of-freedom
    constant (1), the variance over the class-sets with its guard and the square root (23), the sum and its
    reciprocal (4), the flattening of the one-hot array and the second constant (2), the variance over the shots with its
    guard and the square root (23), the two sums, the division by 64 and the final addition (7). -/
abbrev ops : List (HloOp τ sig (Elt F)) :=
  [ nullary main_c (constantI S_ 32 1#32),
    unary main_c main_v0 (broadcastInDim S64x8x1024 ![] bcast_S_S64x8x1024 : (⟨S_, .i32⟩ : BufTy).Contents (Elt F) → (⟨S64x8x1024, .i32⟩ : BufTy).Contents (Elt F)),
    binary main_arg0 main_v0 main_v1 (subi : (⟨S64x8x1024, .i32⟩ : BufTy).Contents (Elt F) → (⟨S64x8x1024, .i32⟩ : BufTy).Contents (Elt F) → (⟨S64x8x1024, .i32⟩ : BufTy).Contents (Elt F)),
    TRef.unary (.of main_v1 : TRef sig ⟨S64x8x1024, .i32⟩) main_call0.v0 (broadcastInDim S64x8x1024x1 ![0, 1, 2] bcast_S64x8x1024_S64x8x1024x1_0_1_2),
    TRef.nullary main_call0.v1 (iotaInDim S1x1x1x128 32 3),
    TRef.unary main_call0.v0 main_call0.v2 (broadcastInDim S64x8x1024x128 ![0, 1, 2, 3] bcast_S64x8x1024x1_S64x8x1024x128_0_1_2_3),
    TRef.unary main_call0.v1 main_call0.v3 (broadcastInDim S64x8x1024x128 ![0, 1, 2, 3] bcast_S1x1x1x128_S64x8x1024x128_0_1_2_3),
    TRef.binary main_call0.v2 main_call0.v3 main_call0.v4 (cmpi .eq),
    TRef.unary main_call0.v4 main_call0.v5 (uitofp .f32),
    nullary main_cst (constant S_ .f32 0x00000000#32),
    binary main_v2 main_cst main_v3 ((fun x v => Host.reduceAdd x v reducesTo_S64x8x1024x128_S64x1024x128_d1 h_S_) : (⟨S64x8x1024x128, .f32⟩ : BufTy).Contents (Elt F) → (⟨S_, .f32⟩ : BufTy).Contents (Elt F) → (⟨S64x1024x128, .f32⟩ : BufTy).Contents (Elt F)),
    nullary main_cst_0 (constant S_ .f32 0x41000000#32),
    unary main_cst_0 main_v4 (broadcastInDim S64x1024x128 ![] bcast_S_S64x1024x128 : (⟨S_, .f32⟩ : BufTy).Contents (Elt F) → (⟨S64x1024x128, .f32⟩ : BufTy).Contents (Elt F)),
    binary main_v3 main_v4 main_v5 (Host.divf : (⟨S64x1024x128, .f32⟩ : BufTy).Contents (Elt F) → (⟨S64x1024x128, .f32⟩ : BufTy).Contents (Elt F) → (⟨S64x1024x128, .f32⟩ : BufTy).Contents (Elt F)),
    reshape main_v5 main_v6 rfl shapeCasts_S64x1024x128_S64x131072,
    nullary main_c_1 (constantI S_ 32 1#32),
    TRef.nullary main_call1.call0.cst (constant S_ .f32 0x00000000#32),
    TRef.binary (.of main_v6 : TRef sig ⟨S64x131072, .f32⟩) main_call1.call0.cst main_call1.call0.v0 (fun x v => Host.reduceAdd x v reducesTo_S64x131072_S131072_d0 h_S_),
    TRef.unary main_call1.call0.v0 main_call1.call0.v1 (broadcastInDim S1x131072 ![1] bcast_S131072_S1x131072_1),
    TRef.nullary main_call1.call0.cst_0 (constant S_ .f32 0x42800000#32),
    TRef.unary main_call1.call0.cst_0 main_call1.call0.v2 (broadcastInDim S1x131072 ![] bcast_S_S1x131072),
    TRef.binary main_call1.call0.v1 main_call1.call0.v2 main_call1.call0.v3 Host.divf,
    TRef.unary main_call1.call0.v3 main_call1.call0.v4 (broadcastInDim S64x131072 ![0, 1] bcast_S1x131072_S64x131072_0_1),
    TRef.binary (.of main_v6 : TRef sig ⟨S64x131072, .f32⟩) main_call1.call0.v4 main_call1.call0.v5 subf,
    TRef.binary main_call1.call0.v5 main_call1.call0.v5 main_call1.call0.v6 mulf,
    TRef.unary (.of main_c_1 : TRef sig ⟨S_, .i32⟩) main_call1.call0.v7 (sitofp .f32),
    TRef.nullary main_call1.call0.cst_1 (constant S_ .f32 0x42800000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S64x131072_S131072_d0 h_S_),
    TRef.unary main_call1.call0.v8 main_call1.call0.v10 (broadcastInDim S131072 ![] bcast_S_S131072),
    TRef.binary main_call1.call0.v9 main_call1.call0.v10 main_call1.call0.v11 Host.divf,
    TRef.nullary main_call1.call0.cst_3 (constant S_ .f32 0x00000000#32),
    TRef.binary main_call1.call0.v8 main_call1.call0.cst_3 main_call1.call0.v12 (cmpf .ogt),
    TRef.nullary main_call1.call0.cst_4 (constant S_ .f32 0x7FC00000#32),
    TRef.unary main_call1.call0.cst_4 main_call1.call0.call0.v0 id,
    TRef.unary main_call1.call0.call0.v0 main_call1.call0.call0.v1 (broadcastInDim S131072 ![] bcast_S_S131072),
    TRef.ternary main_call1.call0.v12 main_call1.call0.v11 main_call1.call0.call0.v1 main_call1.call0.call0.v2 (fun p a b => select (broadcastInDim S131072 ![] bcast_S_S131072 p) a b),
    TRef.unary main_call1.call0.call0.v2 main_call1.v1 Host.sqrt,
    nullary main_cst_2 (constant S_ .f32 0x00000000#32),
    binary main_v7 main_cst_2 main_v8 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    nullary main_cst_3 (constant S_ .f32 0x3F800000#32),
    binary main_cst_3 main_v8 main_v9 (Host.divf : (⟨S_, .f32⟩ : BufTy).Contents (Elt F) → (⟨S_, .f32⟩ : BufTy).Contents (Elt F) → (⟨S_, .f32⟩ : BufTy).Contents (Elt F)),
    reshape main_v2 main_v10 rfl shapeCasts_S64x8x1024x128_S64x8x131072,
    nullary main_c_4 (constantI S_ 32 1#32),
    TRef.nullary main_call2.call0.cst (constant S_ .f32 0x00000000#32),
    TRef.binary (.of main_v10 : TRef sig ⟨S64x8x131072, .f32⟩) main_call2.call0.cst main_call2.call0.v0 (fun x v => Host.reduceAdd x v reducesTo_S64x8x131072_S64x131072_d1 h_S_),
    TRef.unary main_call2.call0.v0 main_call2.call0.v1 (broadcastInDim S64x1x131072 ![0, 2] bcast_S64x131072_S64x1x131072_0_2),
    TRef.nullary main_call2.call0.cst_0 (constant S_ .f32 0x41000000#32),
    TRef.unary main_call2.call0.cst_0 main_call2.call0.v2 (broadcastInDim S64x1x131072 ![] bcast_S_S64x1x131072),
    TRef.binary main_call2.call0.v1 main_call2.call0.v2 main_call2.call0.v3 Host.divf,
    TRef.unary main_call2.call0.v3 main_call2.call0.v4 (broadcastInDim S64x8x131072 ![0, 1, 2] bcast_S64x1x131072_S64x8x131072_0_1_2),
    TRef.binary (.of main_v10 : TRef sig ⟨S64x8x131072, .f32⟩) main_call2.call0.v4 main_call2.call0.v5 subf,
    TRef.binary main_call2.call0.v5 main_call2.call0.v5 main_call2.call0.v6 mulf,
    TRef.unary (.of main_c_4 : TRef sig ⟨S_, .i32⟩) main_call2.call0.v7 (sitofp .f32),
    TRef.nullary main_call2.call0.cst_1 (constant S_ .f32 0x41000000#32),
    TRef.binary main_call2.call0.cst_1 main_call2.call0.v7 main_call2.call0.v8 subf,
    TRef.nullary main_call2.call0.cst_2 (constant S_ .f32 0x00000000#32),
    TRef.binary main_call2.call0.v6 main_call2.call0.cst_2 main_call2.call0.v9 (fun x v => Host.reduceAdd x v reducesTo_S64x8x131072_S64x131072_d1 h_S_),
    TRef.unary main_call2.call0.v8 main_call2.call0.v10 (broadcastInDim S64x131072 ![] bcast_S_S64x131072),
    TRef.binary main_call2.call0.v9 main_call2.call0.v10 main_call2.call0.v11 Host.divf,
    TRef.nullary main_call2.call0.cst_3 (constant S_ .f32 0x00000000#32),
    TRef.binary main_call2.call0.v8 main_call2.call0.cst_3 main_call2.call0.v12 (cmpf .ogt),
    TRef.nullary main_call2.call0.cst_4 (constant S_ .f32 0x7FC00000#32),
    TRef.unary main_call2.call0.cst_4 main_call2.call0.call0.v0 id,
    TRef.unary main_call2.call0.call0.v0 main_call2.call0.call0.v1 (broadcastInDim S64x131072 ![] bcast_S_S64x131072),
    TRef.ternary main_call2.call0.v12 main_call2.call0.v11 main_call2.call0.call0.v1 main_call2.call0.call0.v2 (fun p a b => select (broadcastInDim S64x131072 ![] bcast_S_S64x131072 p) a b),
    TRef.unary main_call2.call0.call0.v2 main_call2.v1 Host.sqrt,
    nullary main_cst_5 (constant S_ .f32 0x00000000#32),
    binary main_v11 main_cst_5 main_v12 ((fun x v => Host.reduceAdd x v reducesTo_S64x131072_S64_d1 h_S_) : (⟨S64x131072, .f32⟩ : BufTy).Contents (Elt F) → (⟨S_, .f32⟩ : BufTy).Contents (Elt F) → (⟨S64, .f32⟩ : BufTy).Contents (Elt F)),
    nullary main_cst_6 (constant S_ .f32 0x00000000#32),
    binary main_v12 main_cst_6 main_v13 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_7 (constant S_ .f32 0x42800000#32),
    binary main_v13 main_cst_7 main_v14 (Host.divf : (⟨S_, .f32⟩ : BufTy).Contents (Elt F) → (⟨S_, .f32⟩ : BufTy).Contents (Elt F) → (⟨S_, .f32⟩ : BufTy).Contents (Elt F)),
    binary main_v9 main_v14 main_v15 (addf : (⟨S_, .f32⟩ : BufTy).Contents (Elt F) → (⟨S_, .f32⟩ : BufTy).Contents (Elt F) → (⟨S_, .f32⟩ : BufTy).Contents (Elt F)) ]

set_option maxRecDepth 4096 in
/-- @main is that straight line: the functions unfolded at their calls, sequencing reassociated. -/
theorem main_eq (c : Dev nD) : main (F := F) c = seq ops := by
  simp only [main, fn_one_hot.body, fn_std.body, fn_var.body, fn_where.body, fn_std_0.body, fn_var_1.body,
    fn_where_2.body, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub ..,
    unary_bufs_sub .., binary_bufs_sub .., unary_bufs_sub .., nullary_bufs_sub .., binary_bufs_sub .., nullary_bufs_sub ..,
    unary_bufs_sub .., binary_bufs_sub .., reshape_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., nullary_bufs_sub .., binary_bufs_sub .., nullary_bufs_sub ..,
    binary_bufs_sub .., reshape_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., nullary_bufs_sub .., binary_bufs_sub .., nullary_bufs_sub .., binary_bufs_sub ..,
    nullary_bufs_sub .., binary_bufs_sub .., binary_bufs_sub ..⟩

/-- No operation writes the label array. -/
theorem arg0_eq (V : Valuation τ sig (Elt F)) :
    after ops V (main_arg0 : DevRef τ sig) = V (main_arg0 : DevRef τ sig) := by
  after_results_simp

set_option maxRecDepth 8192 in
/-- The fold at the result buffer is the composed term: each operation read at its own result buffer, the typed
    references' transports the identity at these literal references. -/
theorem out_eq (V : Valuation τ sig (Elt F)) :
    after ops V (main_v15 : DevRef τ sig) = refTerm (V (main_arg0 : DevRef τ sig)) := by
  after_results_simp
  simp only [TRef.ofBuf, TRef.toBuf, cast_eq]
  unfold refTerm inter inClass var0 var1 cen0 cen1 dof0 dof1 ohMean oneHot
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v15).trans (out_eq _), (h c main_arg0).trans (arg0_eq _)⟩)
    (run_seq scopedRefs_eq scopedSems_eq defs main (fun _ => ops) main_eq (fun _ => ops_sub) m ρ)

end Cert.ReferenceIdeal.RefRun

end
-- ==== Proof.RefValue.lean ====
/-
  The reference's term read at the extended reals, stage by stage at an index: it is `Rres` of the one-hot table.
-/
import proofs.«112873_j75222057222180_1_alg».proof.Proof.RefTerm
import proofs.«112873_j75222057222180_1_alg».proof.Proof.Spec
import proofs.«112873_j75222057222180_1_alg».proof.Proof.Consts
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.RefValue

open Cert.ReferenceIdeal Cert.ReferenceIdeal.Gen Cert.ReferenceIdeal.RefTerm Cert.Spec
open Idealize.ShloMosaic Idealize.ShloMosaic.ValueIdx

/-- A rank-1 index set is its coordinate's range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {n : Nat} (f : (⟨1, ![n]⟩ : Shape).Idx → EReal) : ∑ i, f i = ∑ a : Fin n, f (ix1 a) := by
  rw [← Equiv.sum_comp (idxEquiv1 (n := n)).symm f]; rfl

/-! ## The one-hot table -/

/-- The labels minus one, broadcast over the class axis, read at an index. -/
private theorem labels_apply (x : IVec S64x8x1024 32) (c : Fin 64) (s : Fin 8) (w : Fin 1024) (k : Fin 128) :
    broadcastInDim S64x8x1024x128 ![0, 1, 2, 3] bcast_S64x8x1024x1_S64x8x1024x128_0_1_2_3
      (broadcastInDim S64x8x1024x1 ![0, 1, 2] bcast_S64x8x1024_S64x8x1024x1_0_1_2
        (subi x (broadcastInDim S64x8x1024 ![] bcast_S_S64x8x1024 (constantI S_ 32 1#32)))) (ix4 c s w k)
      = x (ix3 c s w) - 1#32 := by
  rw [broadcastInDim_apply _ _ _ _ (ix4 c s w (0 : Fin 1)) (by intro a; fin_cases a <;> rfl),
    broadcastInDim_apply _ _ _ _ (ix3 c s w) (by intro a; fin_cases a <;> rfl)]
  rfl

/-- The class index, broadcast over the other axes, read at an index. -/
private theorem classes_apply (c : Fin 64) (s : Fin 8) (w : Fin 1024) (k : Fin 128) :
    broadcastInDim S64x8x1024x128 ![0, 1, 2, 3] bcast_S1x1x1x128_S64x8x1024x128_0_1_2_3 (iotaInDim S1x1x1x128 32 3) (ix4 c s w k)
      = BitVec.ofNat 32 k.val := by
  rw [broadcastInDim_apply _ _ _ _ (ix4 (0 : Fin 1) (0 : Fin 1) (0 : Fin 1) k) (by intro a; fin_cases a <;> rfl)]
  rfl

/-- The one-hot entry at (class-set, shot, position, class). -/
theorem oneHot_apply (x : IVec S64x8x1024 32) (c : Fin 64) (s : Fin 8) (w : Fin 1024) (k : Fin 128) :
    oneHot (F := Ideal) x (ix4 c s w k) = hot (x (ix3 c s w)) k := by
  unfold oneHot hot
  show (((IntOp.cmpi .eq _ _).toNat : ℝ) : EReal) = _
  rw [labels_apply, classes_apply]
  unfold IntOp.cmpi
  by_cases h : x (ix3 c s w) - 1#32 = BitVec.ofNat 32 k.val
  · rw [if_pos h]; simp [h]
  · rw [if_neg h]; simp [h]

/-! ## The mean over the shots -/

/-- The mean over the 8 shots at (class-set, flattened position-and-class). -/
theorem ohMean_apply (o : FVec Ideal S64x8x1024x128 .f32) (c : Fin 64) (j : Fin 131072) :
    ohMean o (ix2 c j) = Ideal.div (∑ s : Fin 8, o (ix4 c s (wOf j) (kOf j))) ((8 : ℝ) : EReal) := by
  unfold ohMean
  rw [shapeCast_apply _ _ _ (ix3 c (wOf j) (kOf j)) (by
    rw [Shape.rowMajor_val_three, Shape.rowMajor_val_two]
    show (c.val * 1024 + j.val / 128) * 128 + j.val % 128 = c.val * 131072 + j.val
    omega)]
  rw [hostDivf_apply, hostReduceAdd_apply,
    Ideal.hostReduceAdd_single _ (by decide : S64x8x1024x128.Reduces [1] S64x1024x128)]
  rw [broadcastInDim_scalar_apply, constant_apply, constant_apply, Cert.Consts.ofBits_0, Cert.Consts.ofBits_8, zero_add]
  congr 1
  refine Finset.sum_congr rfl fun s _ => congrArg o ?_
  funext a; fin_cases a <;> rfl

/-! ## The divisors N − 1 and their guards -/

private theorem one_toInt : (((1#32 : BitVec 32).toInt : ℝ) : EReal) = ((1 : ℝ) : EReal) := by
  have h : (1#32 : BitVec 32).toInt = 1 := by decide
  rw [h]; norm_num

/-- 64 − 1 = 63. -/
theorem dof0_apply (i : S_.Idx) : dof0 (F := Ideal) i = ((63 : ℝ) : EReal) := by
  show Ideal.ofBits .f32 0x42800000#32 - (((1#32 : BitVec 32).toInt : ℝ) : EReal) = _
  rw [Cert.Consts.ofBits_64, one_toInt, ← EReal.coe_sub]; norm_num

/-- 8 − 1 = 7. -/
theorem dof1_apply (i : S_.Idx) : dof1 (F := Ideal) i = ((7 : ℝ) : EReal) := by
  show Ideal.ofBits .f32 0x41000000#32 - (((1#32 : BitVec 32).toInt : ℝ) : EReal) = _
  rw [Cert.Consts.ofBits_8, one_toInt, ← EReal.coe_sub]; norm_num

/-- 63 > 0: the guard of the variance over the class-sets holds. -/
theorem guard0 (i : S_.Idx) : cmpf .ogt (dof0 (F := Ideal)) (constant S_ .f32 0x00000000#32) i = 1#1 := by
  rw [cmpf_apply, dof0_apply, constant_apply, Cert.Consts.ofBits_0]
  have h : (0 : EReal) < ((63 : ℝ) : EReal) := EReal.coe_pos.mpr (by norm_num)
  show Ideal.cmp .ogt _ _ = _
  simp [Ideal.cmp, h]

/-- 7 > 0: the guard of the variance over the shots holds. -/
theorem guard1 (i : S_.Idx) : cmpf .ogt (dof1 (F := Ideal)) (constant S_ .f32 0x00000000#32) i = 1#1 := by
  rw [cmpf_apply, dof1_apply, constant_apply, Cert.Consts.ofBits_0]
  have h : (0 : EReal) < ((7 : ℝ) : EReal) := EReal.coe_pos.mpr (by norm_num)
  show Ideal.cmp .ogt _ _ = _
  simp [Ideal.cmp, h]

/-! ## The variance over the class-sets -/

/-- A value less the mean over the 64 class-sets. -/
theorem cen0_apply (a : FVec Ideal S64x131072 .f32) (c : Fin 64) (j : Fin 131072) :
    cen0 a (ix2 c j) = a (ix2 c j) - Ideal.div (∑ c' : Fin 64, a (ix2 c' j)) ((64 : ℝ) : EReal) := by
  unfold cen0
  rw [subf_apply, broadcastInDim_apply _ _ _ _ (ix2 (0 : Fin 1) j) (by intro d; fin_cases d <;> rfl),
    hostDivf_apply, broadcastInDim_apply _ _ _ _ (ix1 j) (by intro d; fin_cases d <;> rfl), hostReduceAdd_apply,
    Ideal.hostReduceAdd_single _ (by decide : S64x131072.Reduces [0] S131072),
    broadcastInDim_scalar_apply, constant_apply, constant_apply, Cert.Consts.ofBits_0, Cert.Consts.ofBits_64, zero_add]
  congr 2
  refine Finset.sum_congr rfl fun c' _ => congrArg a ?_
  funext d; fin_cases d <;> rfl

/-- The sum of the centred squares over the class-sets, over 63. -/
theorem var0_apply (a : FVec Ideal S64x131072 .f32) (j : Fin 131072) :
    var0 a (ix1 j) = Ideal.div (∑ c : Fin 64, cen0 a (ix2 c j) * cen0 a (ix2 c j)) ((63 : ℝ) : EReal) := by
  unfold var0
  rw [select_apply, broadcastInDim_scalar_apply, guard0, select_one, hostDivf_apply, hostReduceAdd_apply,
    Ideal.hostReduceAdd_single _ (by decide : S64x131072.Reduces [0] S131072),
    broadcastInDim_scalar_apply, dof0_apply, constant_apply, Cert.Consts.ofBits_0, zero_add]
  congr 1
  refine Finset.sum_congr rfl fun c _ => ?_
  rw [mulf_apply]
  have e : (by decide : S64x131072.Reduces [0] S131072).lift (ix1 j) c = ix2 c j := by
    funext d; fin_cases d <;> rfl
  rw [e]; rfl

/-- The inter-class term: one over the sum of the deviations. -/
theorem inter_apply (o : FVec Ideal S64x8x1024x128 .f32) (i : S_.Idx) :
    inter o i = Ideal.div ((1 : ℝ) : EReal) (∑ j : Fin 131072, Ideal.sqrt (var0 (ohMean o) (ix1 j))) := by
  unfold inter
  rw [hostDivf_apply, hostReduceAdd_apply, Ideal.hostReduceAdd_total _ (fun b => b.elim0),
    constant_apply, constant_apply, Cert.Consts.ofBits_0, Cert.Consts.ofBits_1, zero_add, sum_idx1]
  rfl

/-! ## The variance over the shots -/

/-- The table flattened over (position, class), read at (class-set, shot, flattened index). -/
theorem flat_apply (o : FVec Ideal S64x8x1024x128 .f32) (c : Fin 64) (s : Fin 8) (j : Fin 131072) :
    shapeCast S64x8x131072 o shapeCasts_S64x8x1024x128_S64x8x131072 (ix3 c s j) = o (ix4 c s (wOf j) (kOf j)) := by
  rw [shapeCast_apply _ _ _ (ix4 c s (wOf j) (kOf j)) (by
    rw [Shape.rowMajor_val_four, Shape.rowMajor_val_three]
    show ((c.val * 8 + s.val) * 1024 + j.val / 128) * 128 + j.val % 128 = (c.val * 8 + s.val) * 131072 + j.val
    omega)]

/-- A value less the mean over the 8 shots. -/
theorem cen1_apply (b : FVec Ideal S64x8x131072 .f32) (c : Fin 64) (s : Fin 8) (j : Fin 131072) :
    cen1 b (ix3 c s j) = b (ix3 c s j) - Ideal.div (∑ s' : Fin 8, b (ix3 c s' j)) ((8 : ℝ) : EReal) := by
  unfold cen1
  rw [subf_apply, broadcastInDim_apply _ _ _ _ (ix3 c (0 : Fin 1) j) (by intro d; fin_cases d <;> rfl),
    hostDivf_apply, broadcastInDim_apply _ _ _ _ (ix2 c j) (by intro d; fin_cases d <;> rfl), hostReduceAdd_apply,
    Ideal.hostReduceAdd_single _ (by decide : S64x8x131072.Reduces [1] S64x131072),
    broadcastInDim_scalar_apply, constant_apply, constant_apply, Cert.Consts.ofBits_0, Cert.Consts.ofBits_8, zero_add]
  congr 2
  refine Finset.sum_congr rfl fun s' _ => congrArg b ?_
  funext d; fin_cases d <;> rfl

/-- The sum of the centred squares over the shots, over 7. -/
theorem var1_apply (b : FVec Ideal S64x8x131072 .f32) (c : Fin 64) (j : Fin 131072) :
    var1 b (ix2 c j) = Ideal.div (∑ s : Fin 8, cen1 b (ix3 c s j) * cen1 b (ix3 c s j)) ((7 : ℝ) : EReal) := by
  unfold var1
  rw [select_apply, broadcastInDim_scalar_apply, guard1, select_one, hostDivf_apply, hostReduceAdd_apply,
    Ideal.hostReduceAdd_single _ (by decide : S64x8x131072.Reduces [1] S64x131072),
    broadcastInDim_scalar_apply, dof1_apply, constant_apply, Cert.Consts.ofBits_0, zero_add]
  congr 1
  refine Finset.sum_congr rfl fun s _ => ?_
  rw [mulf_apply]
  have e : (by decide : S64x8x131072.Reduces [1] S64x131072).lift (ix2 c j) s = ix3 c s j := by
    funext d; fin_cases d <;> rfl
  rw [e]; rfl

/-- The in-class term: the summed deviations over the class-sets, over 64. -/
theorem inClass_apply (o : FVec Ideal S64x8x1024x128 .f32) (i : S_.Idx) :
    inClass o i = Ideal.div (∑ c : Fin 64, ∑ j : Fin 131072,
      Ideal.sqrt (var1 (shapeCast S64x8x131072 o shapeCasts_S64x8x1024x128_S64x8x131072) (ix2 c j))) ((64 : ℝ) : EReal) := by
  unfold inClass
  rw [hostDivf_apply, hostReduceAdd_apply, Ideal.hostReduceAdd_total _ (fun b => b.elim0),
    constant_apply, constant_apply, Cert.Consts.ofBits_0, Cert.Consts.ofBits_64, zero_add, sum_idx1]
  have key : ∀ c : Fin 64,
      Host.reduceAdd (Host.sqrt (var1 (shapeCast S64x8x131072 o shapeCasts_S64x8x1024x128_S64x8x131072)))
          (constant S_ .f32 0x00000000#32) reducesTo_S64x131072_S64_d1 h_S_ (ix1 c)
        = ∑ j : Fin 131072, Ideal.sqrt (var1 (shapeCast S64x8x131072 o shapeCasts_S64x8x1024x128_S64x8x131072) (ix2 c j)) := by
    intro c
    rw [hostReduceAdd_apply, Ideal.hostReduceAdd_single _ (by decide : S64x131072.Reduces [1] S64),
      constant_apply, Cert.Consts.ofBits_0, zero_add]
    refine Finset.sum_congr rfl fun j _ => ?_
    have e : (by decide : S64x131072.Reduces [1] S64).lift (ix1 c) j = ix2 c j := by
      funext d; fin_cases d <;> rfl
    rw [e]; rfl
  rw [Fintype.sum_congr _ _ key]

/-! ## The stages at the one-hot table are the specification's -/

/-- The shot mean of the one-hot table. -/
theorem mean_eq (x : IVec S64x8x1024 32) (c : Fin 64) (j : Fin 131072) :
    ohMean (oneHot (F := Ideal) x) (ix2 c j) = rmean8 (oh x) c (wOf j) (kOf j) := by
  rw [ohMean_apply]
  simp only [oneHot_apply]
  rfl

/-- The shot mean less its mean over the class-sets. -/
theorem cen0_eq (x : IVec S64x8x1024 32) (c : Fin 64) (j : Fin 131072) :
    cen0 (ohMean (oneHot (F := Ideal) x)) (ix2 c j)
      = rmean8 (oh x) c (wOf j) (kOf j) - rmu (oh x) (wOf j) (kOf j) := by
  rw [cen0_apply]
  simp only [mean_eq]
  rfl

/-- The deviation over the class-sets. -/
theorem std0_eq (x : IVec S64x8x1024 32) (j : Fin 131072) :
    Ideal.sqrt (var0 (ohMean (oneHot (F := Ideal) x)) (ix1 j)) = rstd (oh x) (wOf j) (kOf j) := by
  rw [var0_apply]
  simp only [cen0_eq]
  rfl

/-- The flattened one-hot table. -/
theorem flat_eq (x : IVec S64x8x1024 32) (c : Fin 64) (s : Fin 8) (j : Fin 131072) :
    shapeCast S64x8x131072 (oneHot (F := Ideal) x) shapeCasts_S64x8x1024x128_S64x8x131072 (ix3 c s j)
      = oh x c s (wOf j) (kOf j) := by
  rw [flat_apply, oneHot_apply]
  rfl

/-- A one-hot entry less its mean over the shots. -/
theorem cen1_eq (x : IVec S64x8x1024 32) (c : Fin 64) (s : Fin 8) (j : Fin 131072) :
    cen1 (shapeCast S64x8x131072 (oneHot (F := Ideal) x) shapeCasts_S64x8x1024x128_S64x8x131072) (ix3 c s j)
      = oh x c s (wOf j) (kOf j) - rmean8 (oh x) c (wOf j) (kOf j) := by
  rw [cen1_apply]
  simp only [flat_eq]
  rfl

/-- The deviation over the shots. -/
theorem std1_eq (x : IVec S64x8x1024 32) (c : Fin 64) (j : Fin 131072) :
    Ideal.sqrt (var1 (shapeCast S64x8x131072 (oneHot (F := Ideal) x) shapeCasts_S64x8x1024x128_S64x8x131072) (ix2 c j))
      = rcls (oh x) c (wOf j) (kOf j) := by
  rw [var1_apply]
  simp only [cen1_eq]
  rfl

/-- The reference's term at the extended reals is the specification's result of the one-hot table. -/
theorem refTerm_eq (x : IVec S64x8x1024 32) : refTerm (F := Ideal) x = fun _ => Rres (oh x) := by
  funext i
  unfold refTerm
  rw [addf_apply, inter_apply, inClass_apply]
  simp only [std0_eq, std1_eq]
  rfl

end Cert.ReferenceIdeal.RefValue

end
-- ==== Proof.lean ====
/-
  The certificate: a Pallas kernel that scores a clustering of 64 × 8 × 1024 labels into 128 classes — one over the
  summed deviation, across the 64 class-sets, of the per-class shot means, plus the mean over class-sets of the summed
  deviations across the 8 shots of the one-hot entries — against the jnp reference that materialises the one-hot tensor.
  The kernel never builds that tensor: for each (class-set, position, class) it keeps only the occupancy count n over
  the shots, takes the deviation of n across class-sets directly (rescaled by the 8 shots) and the deviation across
  shots in the closed form √(n (8 − n) / 56), and accumulates both over eight tiles of 128 positions.
  Over the extended reals the two agree: the counts are finite, the sums of squares are non-negative (so the clamps at
  zero are the identity), √V / 8 = √(V / 64), and for a 0/1 sequence with sum n, Σ (b − n/8)² = n (8 − n) / 8.
  The frames of the two kernel programs are the generated ones; the reference's frame is its run with the result dropped.
-/
import proofs.«112873_j75222057222180_1_alg».proof.Defs
import proofs.«112873_j75222057222180_1_alg».proof.Proof.Gen.Kernel
import proofs.«112873_j75222057222180_1_alg».proof.Proof.Gen.Kernel.Frame
import proofs.«112873_j75222057222180_1_alg».proof.Proof.Gen.KernelIdeal
import proofs.«112873_j75222057222180_1_alg».proof.Proof.Gen.KernelIdeal.Frame
import proofs.«112873_j75222057222180_1_alg».proof.Proof.Gen.ReferenceIdeal
import proofs.«112873_j75222057222180_1_alg».proof.Proof.Gen.Pre_any_inputs
import proofs.«112873_j75222057222180_1_alg».proof.Proof.Spec
import proofs.«112873_j75222057222180_1_alg».proof.Proof.Bridge
import proofs.«112873_j75222057222180_1_alg».proof.Proof.KerValue
import proofs.«112873_j75222057222180_1_alg».proof.Proof.KerTail
import proofs.«112873_j75222057222180_1_alg».proof.Proof.RefRun
import proofs.«112873_j75222057222180_1_alg».proof.Proof.RefValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_any_inputs.Gen.facts :=
  fun m ρ _ => Cert.Kernel.Gen.frame m ρ

theorem frame_ki : @Cert.frame_KernelIdeal Cert.KernelIdeal.Gen.facts Cert.Pre_any_inputs.Gen.facts :=
  fun m ρ _ => Cert.KernelIdeal.Gen.frame m ρ

theorem frame_ri : @Cert.frame_ReferenceIdeal Cert.ReferenceIdeal.Gen.facts Cert.Pre_any_inputs.Gen.facts :=
  fun m ρ _ => (θ_run Cert.ReferenceIdeal.defs _ _).mono (fun _ h c => (h c).2) (Cert.ReferenceIdeal.RefRun.run (F := Ideal) m ρ)

/-- Both runs end at the same extended real: the kernel's at `Kres`, the reference's at `Rres`, of the one-hot table
    of label arrays that agree; the table's entries are 0 or 1, so the two forms coincide. -/
theorem algebraic : @Cert.algebraic_KernelIdeal_ReferenceIdeal Cert.KernelIdeal.Gen.facts Cert.ReferenceIdeal.Gen.facts Cert.Pre_any_inputs.Gen.facts := by
  intro m ρ m' ρ' _ hagree
  refine ⟨fun c => (fun _ => Cert.Spec.Kres (Cert.Spec.oh (m ((c.tc : Thread Cert.KernelIdeal.nD Cert.KernelIdeal.τ).loc Cert.KernelIdeal.main_arg0)))),
    Cert.KernelIdeal.KerTail.run_of m ρ (Cert.KernelIdeal.KerValue.final_o m), ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refTerm_eq, hagree c]
  funext _
  exact (Cert.Spec.Kres_eq_Rres _ (Cert.Spec.oh_01 _)).symm

theorem claim : Cert.Claim :=
  ⟨Cert.Kernel.Gen.facts, Cert.KernelIdeal.Gen.facts, Cert.ReferenceIdeal.Gen.facts, Cert.Pre_any_inputs.Gen.facts,
    frame_k, frame_ki, frame_ri, trivial, algebraic⟩

end Cert.Proof

end
